-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x16 : Shape := ⟨2, ![1600000, 16]⟩
abbrev S144x64 : Shape := ⟨2, ![144, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S144x64 : S_.BroadcastsInDim S144x64 (![] : Fin 0 → Fin S144x64.rank)
  reducesTo_S144x64_S_d0_1 : S144x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 4294867296#32
  let main_v39 : IVec S2x1600000 32 := broadcastInDim S2x1600000 ![] bcast_S_S2x1600000 main_c_14
  let main_v40 : IVec S2x1600000 1 := cmpi .sge main_arg1 main_v39
  let main_c_15 : IVec S_ 1 := constantI S_ 1 1#1
  let main_v41 : IVec S_ 1 := (fun x v => Host.reduce IntOp.andi x v reducesTo_S2x1600000_S_d0_1 h_S_) main_v40 main_c_15
  let main_v42 : IVec S_ 1 := andi main_v38 main_v41
  let main_c_16 : IVec S_ 32 := constantI S_ 32 100000#32
  let main_v43 : IVec S2x1600000 32 := broadcastInDim S2x1600000 ![] bcast_S_S2x1600000 main_c_16
  let main_v44 : IVec S2x1600000 1 := cmpi .slt main_arg1 main_v43
  let main_c_17 : IVec S_ 1 := constantI S_ 1 1#1
  let main_v45 : IVec S_ 1 := (fun x v => Host.reduce IntOp.andi x v reducesTo_S2x1600000_S_d0_1 h_S_) main_v44 main_c_17
  let main_v46 : IVec S_ 1 := andi main_v42 main_v45
  main_v46

def fn_part1 {F : FTy → Type} [FloatOps F] (main_arg1 : IVec S2x1600000 32) (main_arg5 : FVec F S64x64 .f32) (main_arg6 : FVec F S64 .f32) (main_arg7 : FVec F S128x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg8 main_v33

def fn {F : FTy → Type} [FloatOps F] (main_arg0 : FVec F S100000x64 .f32) (main_arg1 : IVec S2x1600000 32) (main_arg2 : FVec F S1600000x16 .f32) (main_arg3 : FVec F S144x64 .f32) (main_arg4 : FVec F S64 .f32) (main_arg5 : FVec F S64x64 .f32) (main_arg6 : FVec F S64 .f32) (main_arg7 : FVec F S128x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S144x64 .f32 := Host.absf main_arg3
  let main_cst_2 : FVec F S_ .f32 := constant S_ .f32 0x7F800000#32
  let main_v10 : FVec F S144x64 .f32 := broadcastInDim S144x64 ![] bcast_S_S144x64 main_cst_2
  let main_v11 : IVec S144x64 1 := cmpf .olt main_v9 main_v10
  let main_c_3 : IVec S_ 1 := constantI S_ 1 1#1
  let main_v12 : IVec S_ 1 := (fun x v => Host.reduce IntOp.andi x v reducesTo_S144x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000x16 : Shape := ⟨2, ![1600000, 16]⟩
abbrev S144x64 : Shape := ⟨2, ![144, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S16x64 : Shape := ⟨2, ![16, 64]⟩
abbrev S1x64 : Shape := ⟨2, ![1, 64]⟩
abbrev S16000x64 : Shape := ⟨2, ![16000, 64]⟩
abbrev S16000x16 : Shape := ⟨2, ![16000, 16]⟩
abbrev S100000x1 : Shape := ⟨2, ![100000, 1]⟩
abbrev S10000x64 : Shape := ⟨2, ![10000, 64]⟩

abbrev nBuf : Space → Nat
  | .hbm => 93
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x16, .f32⟩
  | .hbm, ⟨3, _⟩ => ⟨S144x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1, .i32⟩
  | .hbm, ⟨22, _⟩ => ⟨S_, .i32⟩
  | .hbm, ⟨23, _⟩ => ⟨S1600000x1, .i32⟩
  | .hbm, ⟨24, _⟩ => ⟨S1600000x1, .i1⟩
  | .hbm, ⟨25, _⟩ => ⟨S1x1, .i32⟩
  | .hbm, ⟨26, _⟩ => ⟨S1600000x1, .i32⟩
  | .hbm, ⟨27, _⟩ => ⟨S1600000x1, .i1⟩
  | .hbm, ⟨28, _⟩ => ⟨S1600000x1, .i1⟩
  | .hbm, ⟨29, _⟩ => ⟨S_, .i1⟩
  | .hbm, ⟨30, _⟩ => ⟨S1600000, .i1⟩
  | .hbm, ⟨31, _⟩ => ⟨S1600000x64, .f32⟩
  | .hbm, ⟨32, _⟩ => ⟨S1600000x64, .i1⟩
  | .hbm, ⟨33, _⟩ => ⟨S_, .f32⟩
  | .hbm, ⟨34, _⟩ => ⟨S1600000x64, .f32⟩
  | .hbm, ⟨35, _⟩ => ⟨S1600000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1, .i32⟩
  | .hbm, ⟨45, _⟩ => ⟨S_, .i32⟩
  | .hbm, ⟨46, _⟩ => ⟨S1600000x1, .i32⟩
  | .hbm, ⟨47, _⟩ => ⟨S1600000x1, .i1⟩
  | .hbm, ⟨48, _⟩ => ⟨S1x1, .i32⟩
  | .hbm, ⟨49, _⟩ => ⟨S1600000x1, .i32⟩
  | .hbm, ⟨50, _⟩ => ⟨S1600000x1, .i1⟩
  | .hbm, ⟨51, _⟩ => ⟨S1600000x1, .i1⟩
  | .hbm, ⟨52, _⟩ => ⟨S_, .i1⟩
  | .hbm, ⟨53, _⟩ => ⟨S1600000, .i1⟩
  | .hbm, ⟨54, _⟩ => ⟨S1600000x64, .f32⟩
  | .hbm, ⟨55, _⟩ => ⟨S1600000x64, .i1⟩
  | .hbm, ⟨56, _⟩ => ⟨S_, .f32⟩
  | .hbm, ⟨57, _⟩ => ⟨S1600000x64, .f32⟩
  | .hbm, ⟨58, _⟩ => ⟨S1600000x64, .f32⟩
  | .hbm, ⟨59, _⟩ => ⟨S1600000x64, .bf16⟩
  | .hbm, ⟨60, _⟩ => ⟨S1600000x64, .bf16⟩
  | .hbm, ⟨61, _⟩ => ⟨S1600000x16, .bf16⟩
  | .hbm, ⟨62, _⟩ => ⟨S64x64, .f32⟩
  | .hbm, ⟨63, _⟩ => ⟨S64x64, .bf16⟩
  | .hbm, ⟨64, _⟩ => ⟨S64x64, .f32⟩
  | .hbm, ⟨65, _⟩ => ⟨S64x64, .bf16⟩
  | .hbm, ⟨66, _⟩ => ⟨S16x64, .f32⟩
  | .hbm, ⟨67, _⟩ => ⟨S16x64, .bf16⟩
  | .hbm, ⟨68, _⟩ => ⟨S1x64, .f32⟩
  | .hbm, ⟨69, _⟩ => ⟨S64x64, .bf16⟩
  | .hbm, ⟨70, _⟩ => ⟨S1x64, .f32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S_, .f32⟩
  | .hbm, ⟨77, _⟩ => ⟨S1600000x1, .f32⟩
  | .hbm, ⟨78, _⟩ => ⟨S_, .f32⟩
  | .hbm, ⟨79, _⟩ => ⟨S100000x1, .f32⟩
  | .hbm, ⟨80, _⟩ => ⟨S1600000x1, .i32⟩
  | .hbm, ⟨81, _⟩ => ⟨S100000x1, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x64, .f32⟩
  | .hbm, ⟨86, _⟩ => ⟨S100000x64, .f32⟩
  | .hbm, ⟨87, _⟩ => ⟨S64x64, .f32⟩
  | .hbm, ⟨88, _⟩ => ⟨S64x64, .bf16⟩
  | .hbm, ⟨89, _⟩ => ⟨S64x64, .f32⟩
  | .hbm, ⟨90, _⟩ => ⟨S64x64, .bf16⟩
  | .hbm, ⟨91, _⟩ => ⟨S1x64, .f32⟩
  | .hbm, ⟨92, _⟩ => ⟨S100000x64, .f32⟩
  | .local _ .vmem, ⟨0, _⟩ => ⟨S16000x64, .bf16⟩
  | .local _ .vmem, ⟨1, _⟩ => ⟨S16000x64, .bf16⟩
  | .local _ .vmem, ⟨2, _⟩ => ⟨S16000x64, .bf16⟩
  | .local _ .vmem, ⟨3, _⟩ => ⟨S16000x64, .bf16⟩
  | .local _ .vmem, ⟨4, _⟩ => ⟨S16000x16, .bf16⟩
  | .local _ .vmem, ⟨5, _⟩ => ⟨S16000x16, .bf16⟩
  | .local _ .vmem, ⟨6, _⟩ => ⟨S64x64, .bf16⟩
  | .local _ .vmem, ⟨7, _⟩ => ⟨S64x64, .bf16⟩
  | .local _ .vmem, ⟨8, _⟩ => ⟨S16x64, .bf16⟩
  | .local _ .vmem, ⟨9, _⟩ => ⟨S1x64, .f32⟩
  | .local _ .vmem, ⟨10, _⟩ => ⟨S64x64, .bf16⟩
  | .local _ .vmem, ⟨11, _⟩ => ⟨S1x64, .f32⟩
  | .local _ .vmem, ⟨12, _⟩ => ⟨S16000x64, .f32⟩
  | .local _ .vmem, ⟨13, _⟩ => ⟨S16000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .bf16⟩
  | .local _ .vmem, ⟨19, _⟩ => ⟨S64x64, .bf16⟩
  | .local _ .vmem, ⟨20, _⟩ => ⟨S1x64, .f32⟩
  | .local _ .vmem, ⟨21, _⟩ => ⟨S10000x64, .f32⟩
  | .local _ .vmem, ⟨22, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_cst : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_cst_0 : Ref sig .tc := ⟨.hbm, 76, rfl⟩
abbrev main_v22 : Ref sig .tc := ⟨.hbm, 77, rfl⟩
abbrev main_cst_1 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_cst_2 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bitsLt_bf16_f32 : FTy.bits .bf16 < FTy.bits .f32
  slices_S144x64_S64x64_0_0 : S144x64.Slices ![0, 0] S64x64
  slices_S144x64_S64x64_64_0 : S144x64.Slices ![64, 0] S64x64
  slices_S144x64_S16x64_128_0 : S144x64.Slices ![128, 0] S16x64
  shapeCasts_S64_S1x64 : S64.ShapeCasts S1x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S16000x16_S16000x16_0_0 : ∀ a, (![0, 0] : Fin 2 → Nat) a + S16000x16.size a ≤ S16000x16.size a
  h_S16000x16 : 0 < S16000x16.numel
  shapeCasts_S16000x16_S16000x16 : S16000x16.ShapeCasts S16000x16
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  bcast_S_S100000x64 : S_.BroadcastsInDim S100000x64 (![] : Fin 0 → Fin S100000x64.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S128x64_S64x64_0_0 : S128x64.Slices ![0, 0] S64x64
  slices_S128x64_S64x64_64_0 : S128x64.Slices ![64, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  dot_S16000x64_S64x64_S16000x64_1_0_0_1_n_n_wf : DotDims.WF S16000x64 S64x64 S16000x64 [1] [0] [0] [1] [] []
  dot_S16000x16_S16x64_S16000x64_1_0_0_1_n_n_wf : DotDims.WF S16000x16 S16x64 S16000x64 [1] [0] [0] [1] [] []
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .bf16 = 32 ∨ (Rect.block (s := S1600000x64) S16000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S1600000x64.size a
  hwx0_1 : ∀ i : grid0.Coords, EltTy.bits .bf16 = 32 ∨ (Rect.block (s := S1600000x64) S16000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x16.size a ≤ S1600000x16.size a
  hwx0_2 : ∀ i : grid0.Coords, EltTy.bits .bf16 = 32 ∨ (Rect.block (s := S1600000x16) S16000x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .bf16 = 32 ∨ (Rect.block (s := S16x64) S16x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16000x64.size a ≤ S1600000x64.size a
  hwx0_9 : ∀ i : grid0.Coords, EltTy.bits .f32 = 32 ∨ (Rect.block (s := S1600000x64) S16000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S16000x16_S16x64_S16000x64_1_0_0_1_n_n : DotDims S16000x16 S16x64 S16000x64 where
  lhsContracting := [1]
  rhsContracting := [0]
  lhsNonContracting := [0]
  rhsNonContracting := [1]
  lhsBatch := []
  rhsBatch := []
  wf := dot_S16000x16_S16x64_S16000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v6) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S16000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S16000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x16 : Shape := ⟨2, ![1600000, 16]⟩
abbrev S144x64 : Shape := ⟨2, ![144, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x144 : Shape := ⟨2, ![1600000, 144]⟩
abbrev S1x64 : Shape := ⟨2, ![1, 64]⟩
abbrev S100000x1 : Shape := ⟨2, ![100000, 1]⟩
abbrev S100000x128 : Shape := ⟨2, ![100000, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x16, .f32⟩
  | .hbm, ⟨3, _⟩ => ⟨S144x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S1600000x144, .f32⟩
  | .hbm, ⟨32, _⟩ => ⟨S1600000x64, .f32⟩
  | .hbm, ⟨33, _⟩ => ⟨S1x64, .f32⟩
  | .hbm, ⟨34, _⟩ => ⟨S1600000x64, .f32⟩
  | .hbm, ⟨35, _⟩ => ⟨S1600000x64, .f32⟩
  | .hbm, ⟨36, _⟩ => ⟨S_, .f32⟩
  | .hbm, ⟨37, _⟩ => ⟨S1600000x64, .f32⟩
  | .hbm, ⟨38, _⟩ => ⟨S1600000x64, .f32⟩
  | .hbm, ⟨39, _⟩ => ⟨S1600000x64, .f32⟩
  | .hbm, ⟨40, _⟩ => ⟨S1x64, .f32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S_, .f32⟩
  | .hbm, ⟨48, _⟩ => ⟨S1600000x1, .f32⟩
  | .hbm, ⟨49, _⟩ => ⟨S_, .f32⟩
  | .hbm, ⟨50, _⟩ => ⟨S100000x1, .f32⟩
  | .hbm, ⟨51, _⟩ => ⟨S1600000x1, .i32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S100000x128, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x16_S1600000x144_d1 : Shape.Concatenates [S1600000x64, S1600000x64, S1600000x16] S1600000x144 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x144_S144x64_S1600000x64_1_0_0_1_n_n_wf : DotDims.WF S1600000x144 S144x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x144_S144x64_S1600000x64_1_0_0_1_n_n : DotDims S1600000x144 S144x64 S1600000x64 where
  lhsContracting := [1]
  rhsContracting := [0]
  lhsNonContracting := [0]
  rhsNonContracting := [1]
  lhsBatch := []
  rhsBatch := []
  wf := dot_S1600000x144_S144x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  One message-passing layer over the extended reals, as functions of whole arrays.

  For an edge `e` with gathered endpoint rows `xs e`, `xd e` and attribute row `ea e`:
    pre  e k = Σ_q xs e q · ws q k  +  Σ_q xd e q · wd q k  +  Σ_q ea e q · we q k  +  b1 k
    msg  e j = Σ_k max (pre e k) 0 · w2 k j  +  b2 j
  and for a node `n` with its own row `x n` and aggregated row `agg n`:
    upd  n j = x n j  +  max (Σ_q x n q · wx q j  +  Σ_q agg n q · wa q j  +  bu j) 0.

  The three weight pieces `ws`, `wd`, `we` are the row ranges [0,64), [64,128), [128,144) of one 144-row matrix, and
  `wx`, `wa` the halves of one 128-row matrix: a contraction over the concatenated row is the sum of the contractions
  over its pieces (`sum_split3`, `sum_split2`). That regrouping uses only that addition on the extended reals is
  commutative and associative; no finiteness is needed.
-/
import Idealize.ShloMosaic.PureOps.Ideal
import Idealize.ShloMosaic.Lib.ValueIdx

noncomputable section

open scoped BigOperators

namespace Cert.EdgeConv

open Idealize.ShloMosaic Idealize.ShloMosaic.ValueIdx

/-- A matrix of extended reals, indexed as the arrays of the programs are. -/
abbrev Mat (r c : Nat) : Type := (⟨2, ![r, c]⟩ : Shape).Idx → EReal

/-- The message MLP's pre-activation at edge `e`, hidden unit `k`: three contractions and the bias, in that order. -/
def preAct {E : Nat} (xs xd : Mat E 64) (ea : Mat E 16) (ws wd : Mat 64 64) (we : Mat 16 64) (b1 : Mat 1 64)
    (e : Fin E) (k : Fin 64) : EReal :=
  (((∑ q : Fin 64, xs (ix2 e q) * ws (ix2 q k)) + ∑ q : Fin 64, xd (ix2 e q) * wd (ix2 q k))
    + ∑ q : Fin 16, ea (ix2 e q) * we (ix2 q k)) + b1 (ix2 0 k)

/-- The message of edge `e` at output unit `j`. -/
def msgAt {E : Nat} (xs xd : Mat E 64) (ea : Mat E 16) (ws wd : Mat 64 64) (we : Mat 16 64) (b1 : Mat 1 64)
    (w2 : Mat 64 64) (b2 : Mat 1 64) (e : Fin E) (j : Fin 64) : EReal :=
  (∑ k : Fin 64, max (preAct xs xd ea ws wd we b1 e k) 0 * w2 (ix2 k j)) + b2 (ix2 0 j)

/-- All messages, as one array. -/
def msg {E : Nat} (xs xd : Mat E 64) (ea : Mat E 16) (ws wd : Mat 64 64) (we : Mat 16 64) (b1 : Mat 1 64)
    (w2 : Mat 64 64) (b2 : Mat 1 64) : Mat E 64 :=
  fun i => msgAt xs xd ea ws wd we b1 w2 b2 (i 0) (i 1)

/-- The updated feature of node `n` at unit `j`: the residual plus the rectified update. -/
def updAt {N : Nat} (x agg : Mat N 64) (wx wa : Mat 64 64) (bu : Mat 1 64) (n : Fin N) (j : Fin 64) : EReal :=
  x (ix2 n j) + max (((∑ q : Fin 64, x (ix2 n q) * wx (ix2 q j)) + ∑ q : Fin 64, agg (ix2 n q) * wa (ix2 q j)) + bu (ix2 0 j)) 0

/-- All updated features, as one array. -/
def upd {N : Nat} (x agg : Mat N 64) (wx wa : Mat 64 64) (bu : Mat 1 64) : Mat N 64 :=
  fun i => updAt x agg wx wa bu (i 0) (i 1)

/-- `n` consecutive rows of a matrix, from row `off` on. -/
def rowsFrom {R : Nat} (n off : Nat) (h : off + n ≤ R) (w : Mat R 64) : Mat n 64 :=
  fun i => w (ix2 ⟨off + (i 0).val, by have h0 : (i 0).val < n := (i 0).isLt; omega⟩ (i 1))

/-- A vector of 64 entries as a one-row matrix. -/
def asRow (b : (⟨1, ![64]⟩ : Shape).Idx → EReal) : Mat 1 64 := fun i => b (ix1 (i 1))

theorem msg_apply {E : Nat} (xs xd : Mat E 64) (ea : Mat E 16) (ws wd : Mat 64 64) (we : Mat 16 64) (b1 : Mat 1 64)
    (w2 : Mat 64 64) (b2 : Mat 1 64) (e : Fin E) (j : Fin 64) :
    msg xs xd ea ws wd we b1 w2 b2 (ix2 e j) = msgAt xs xd ea ws wd we b1 w2 b2 e j := rfl

theorem upd_apply {N : Nat} (x agg : Mat N 64) (wx wa : Mat 64 64) (bu : Mat 1 64) (n : Fin N) (j : Fin 64) :
    upd x agg wx wa bu (ix2 n j) = updAt x agg wx wa bu n j := rfl

/-- A sum over 144 = 64 + 64 + 16 terms is the sum of its three consecutive stretches. -/
theorem sum_split3 {M : Type*} [AddCommMonoid M] (f : Fin 144 → M) :
    ∑ k : Fin 144, f k
      = ((∑ q : Fin 64, f ⟨q.val, by omega⟩) + ∑ q : Fin 64, f ⟨64 + q.val, by omega⟩) + ∑ q : Fin 16, f ⟨128 + q.val, by omega⟩ := by
  have h1 := Fin.sum_univ_add (a := 128) (b := 16) f
  have h2 := Fin.sum_univ_add (a := 64) (b := 64) (fun i : Fin 128 => f (Fin.castAdd 16 i))
  rw [h1, h2]
  rfl

/-- A sum over 128 = 64 + 64 terms is the sum of its two halves. -/
theorem sum_split2 {M : Type*} [AddCommMonoid M] (f : Fin 128 → M) :
    ∑ k : Fin 128, f k = (∑ q : Fin 64, f ⟨q.val, by omega⟩) + ∑ q : Fin 64, f ⟨64 + q.val, by omega⟩ := by
  have h := Fin.sum_univ_add (a := 64) (b := 64) f
  rw [h]
  rfl

end Cert.EdgeConv

end
-- ==== Proof.HostTerms.lean ====
/-
  The host arithmetic around the two kernel regions, named piece by piece.

  An index word `v` of the edge table is first wrapped as NumPy does a negative index (`v + 100000` when `v < 0`),
  then used to read a row of the feature matrix. `gatherRows` is the plain read (the start index clamped into
  [0, 99999]); `takeRows` is the same read under a range mask, with a fixed filler where the wrapped index falls
  outside [0, 99999]. `aggOf` is the mean aggregation: the segment sum of the messages over the raw destination
  words, divided by the segment count plus the small constant.
-/
import proofs.«406595_j16174846837133_1_alg».proof.Proof.Gen.KernelIdeal
import Idealize.ShloMosaic.PureOps.Ideal

noncomputable section

namespace Cert.KernelIdeal.HostTerms

open Cert.KernelIdeal Cert.KernelIdeal.Facts₀ Cert.KernelIdeal.Facts Idealize.ShloMosaic

/-- Row 0 of the edge table as a flat vector: each edge's source word. -/
def idxRow0 (ei : IVec S2x1600000 32) : IVec S1600000 32 :=
  shapeCast S1600000 (extractStridedSlice S1x1600000 ![0, 0] ei slices_S2x1600000_S1x1600000_0_0) shapeCasts_S1x1600000_S1600000

/-- Row 1 of the edge table as a flat vector: each edge's destination word. -/
def idxRow1 (ei : IVec S2x1600000 32) : IVec S1600000 32 :=
  shapeCast S1600000 (extractStridedSlice S1x1600000 ![1, 0] ei slices_S2x1600000_S1x1600000_1_0) shapeCasts_S1x1600000_S1600000

/-- A negative index word counts from the end: `v + 100000` when `v < 0`, else `v`. -/
def wrapIdx (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- The index words as a one-column table. -/
def idxCol (w : IVec S1600000 32) : IVec S1600000x1 32 :=
  broadcastInDim S1600000x1 ![0] bcast_S1600000_S1600000x1_0 w

/-- Per edge: is the (wrapped) index word inside [0, 99999]? -/
def inRangeMask (w : IVec S1600000 32) : IVec S1600000 1 :=
  Host.reduce IntOp.andi
    (andi (cmpi .sge (idxCol w) (broadcastInDim S1600000x1 ![] bcast_S_S1600000x1 (constantI S_ 32 0#32)))
      (cmpi .sle (idxCol w) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows the index words name, the start index clamped into range. -/
def gatherRows (x : FVec Ideal S100000x64 .f32) (w : IVec S1600000 32) : FVec Ideal S1600000x64 .f32 :=
  Host.gather gather_S100000x64_S1600000x1_S1600000x64_1_0_n_n_0_1_164 x (idxCol w)

/-- The same rows under the range mask: where the wrapped word is out of range the row is a fixed filler pattern. -/
def takeRows (x : FVec Ideal S100000x64 .f32) (v : IVec S1600000 32) : FVec Ideal S1600000x64 .f32 :=
  select (broadcastInDim S1600000x64 ![0] bcast_S1600000_S1600000x64_0 (inRangeMask (wrapIdx v)))
    (gatherRows x (wrapIdx v))
    (broadcastInDim S1600000x64 ![] bcast_S_S1600000x64 (constant S_ .f32 0x7FC00000#32))

/-- Mean aggregation over destination words: segment sum of the messages over the segment count plus a small constant. -/
def aggOf (msgs : FVec Ideal S1600000x64 .f32) (v : IVec S1600000 32) : FVec Ideal S100000x64 .f32 :=
  Host.divf
    (Host.scatterAdd scatter_S100000x64_S1600000x1_S1600000x64_1_0_0_1
      (broadcastInDim S100000x64 ![] bcast_S_S100000x64 (constant S_ .f32 0x00000000#32)) (idxCol v) msgs)
    (broadcastInDim S100000x64 ![0, 1] bcast_S100000x1_S100000x64_0_1
      (addf
        (Host.scatterAdd scatter_S100000x1_S1600000x1_S1600000x1_1_0_0_1
          (broadcastInDim S100000x1 ![] bcast_S_S100000x1 (constant S_ .f32 0x00000000#32)) (idxCol v)
          (broadcastInDim S1600000x1 ![] bcast_S_S1600000x1 (constant S_ .f32 0x3F800000#32)))
        (broadcastInDim S100000x1 ![] bcast_S_S100000x1 (constant S_ .f32 0x358637BD#32))))

end Cert.KernelIdeal.HostTerms

end
-- ==== Proof.HostIn.lean ====
/-
  What each region finds in its operand arrays, as host arithmetic of the program's arguments.

  Before the message region the host gathers the endpoint rows (the masked read `takeRows` of the feature matrix at the
  source and destination words), narrows the float format of every matrix operand, cuts the first weight matrix into
  its three row ranges and reshapes the two biases to one row. Between the regions it aggregates the messages
  (`aggOf`, over the raw destination words), cuts the update matrix into its two halves and reshapes the last bias.
  No host operation and no region writes an argument, so an argument's buffer reads back as launched throughout.

  A masked read is a line of 23 host operations whose 18th and-reduces the range test over 1600000 rows. Its value is
  read in two cuts, the operations up to the reduce and the five after it, so that the five are read over ANY contents
  of the mask buffer and never against the reduce itself.
-/
import proofs.«406595_j16174846837133_1_alg».proof.Proof.Gen.KernelIdeal.Frame
import proofs.«406595_j16174846837133_1_alg».proof.Proof.HostTerms
import Idealize.ShloMosaic.Lib.StableHlo.Run
import Idealize.ShloMosaic.PureOps.Ideal

set_option maxRecDepth 16384
set_option maxHeartbeats 4000000

noncomputable section

namespace Cert.KernelIdeal.HostIn

open Cert.KernelIdeal Cert.KernelIdeal.Gen Cert.KernelIdeal.HostTerms
open Idealize.ShloMosaic Idealize.ShloMosaic.TcCoe Idealize.SL.Sem Idealize.ShloMosaic.StableHlo

/-! ## The two masked reads, over any contents at their stretch's entry -/

/-- Running two lists of host operations one after the other is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons o l ih => simp only [List.cons_append, after_cons, ih]

/-- The first masked read's operations up to its range mask, and the five after it. -/
abbrev hostOps0_1Head : List (HloOp τ sig (Elt Ideal)) := (hostOps0_1 (F := Ideal)).take 18
abbrev hostOps0_1Tail : List (HloOp τ sig (Elt Ideal)) := (hostOps0_1 (F := Ideal)).drop 18
theorem hostOps0_1_split : (hostOps0_1 (F := Ideal)) = hostOps0_1Head ++ hostOps0_1Tail := (List.take_append_drop 18 _).symm

theorem mask0 (P : Valuation τ sig (Elt Ideal)) :
    (StableHlo.after hostOps0_1Head P (Proc.devRef .tc main_call0_v12) : IVec S1600000 1) = inRangeMask (wrapIdx (P (Proc.devRef .tc main_v1))) := by
  dsimp only [hostOps0_1Head, hostOps0_1, List.take]
  after_results_simp
  dsimp only [cast_eq]
  unfold inRangeMask wrapIdx idxCol
  rfl

theorem col0 (P : Valuation τ sig (Elt Ideal)) :
    (StableHlo.after hostOps0_1Head P (Proc.devRef .tc main_call0_v5) : IVec S1600000x1 32) = idxCol (wrapIdx (P (Proc.devRef .tc main_v1))) := by
  dsimp only [hostOps0_1Head, hostOps0_1, List.take]
  after_results_simp <;> rfl

theorem keep0 (P : Valuation τ sig (Elt Ideal)) :
    StableHlo.after hostOps0_1Head P (Proc.devRef .tc main_arg0) = (P (Proc.devRef .tc main_arg0)) := by
  dsimp only [hostOps0_1Head, hostOps0_1, List.take]
  after_results_simp <;> rfl

/-- The last five operations: the plain read, the mask spread over the columns, the filler, and the select. -/
theorem tail0 (Q : Valuation τ sig (Elt Ideal)) :
    (StableHlo.after hostOps0_1Tail Q (Proc.devRef .tc main_v4) : FVec Ideal S1600000x64 .f32)
      = select (broadcastInDim S1600000x64 ![0] Facts₀.bcast_S1600000_S1600000x64_0 (Q (Proc.devRef .tc main_call0_v12) : IVec S1600000 1))
          (Host.gather gather_S100000x64_S1600000x1_S1600000x64_1_0_n_n_0_1_164 (Q (Proc.devRef .tc main_arg0) : FVec Ideal S100000x64 .f32) (Q (Proc.devRef .tc main_call0_v5) : IVec S1600000x1 32))
          (broadcastInDim S1600000x64 ![] Facts₀.bcast_S_S1600000x64 (constant (F := Ideal) S_ .f32 0x7FC00000#32)) := by
  dsimp only [hostOps0_1Tail, hostOps0_1, List.drop]
  after_results_simp <;> rfl

/-- So the masked read is `takeRows` of the feature matrix at the index words, whatever the stretch is entered from. -/
theorem take0 (P : Valuation τ sig (Elt Ideal)) :
    (StableHlo.after (hostOps0_1 (F := Ideal)) P (Proc.devRef .tc main_v4) : FVec Ideal S1600000x64 .f32)
      = takeRows (P (Proc.devRef .tc main_arg0)) (P (Proc.devRef .tc main_v1)) := by
  rw [hostOps0_1_split, after_append, tail0, mask0, col0, keep0]
  rfl

/-- The second masked read's operations up to its range mask, and the five after it. -/
abbrev hostOps0_2Head : List (HloOp τ sig (Elt Ideal)) := (hostOps0_2 (F := Ideal)).take 18
abbrev hostOps0_2Tail : List (HloOp τ sig (Elt Ideal)) := (hostOps0_2 (F := Ideal)).drop 18
theorem hostOps0_2_split : (hostOps0_2 (F := Ideal)) = hostOps0_2Head ++ hostOps0_2Tail := (List.take_append_drop 18 _).symm

theorem mask1 (P : Valuation τ sig (Elt Ideal)) :
    (StableHlo.after hostOps0_2Head P (Proc.devRef .tc main_call1_v12) : IVec S1600000 1) = inRangeMask (wrapIdx (P (Proc.devRef .tc main_v3))) := by
  dsimp only [hostOps0_2Head, hostOps0_2, List.take]
  after_results_simp
  dsimp only [cast_eq]
  unfold inRangeMask wrapIdx idxCol
  rfl

theorem col1 (P : Valuation τ sig (Elt Ideal)) :
    (StableHlo.after hostOps0_2Head P (Proc.devRef .tc main_call1_v5) : IVec S1600000x1 32) = idxCol (wrapIdx (P (Proc.devRef .tc main_v3))) := by
  dsimp only [hostOps0_2Head, hostOps0_2, List.take]
  after_results_simp <;> rfl

theorem keep1 (P : Valuation τ sig (Elt Ideal)) :
    StableHlo.after hostOps0_2Head P (Proc.devRef .tc main_arg0) = (P (Proc.devRef .tc main_arg0)) := by
  dsimp only [hostOps0_2Head, hostOps0_2, List.take]
  after_results_simp <;> rfl

/-- The last five operations: the plain read, the mask spread over the columns, the filler, and the select. -/
theorem tail1 (Q : Valuation τ sig (Elt Ideal)) :
    (StableHlo.after hostOps0_2Tail Q (Proc.devRef .tc main_v5) : FVec Ideal S1600000x64 .f32)
      = select (broadcastInDim S1600000x64 ![0] Facts₀.bcast_S1600000_S1600000x64_0 (Q (Proc.devRef .tc main_call1_v12) : IVec S1600000 1))
          (Host.gather gather_S100000x64_S1600000x1_S1600000x64_1_0_n_n_0_1_164 (Q (Proc.devRef .tc main_arg0) : FVec Ideal S100000x64 .f32) (Q (Proc.devRef .tc main_call1_v5) : IVec S1600000x1 32))
          (broadcastInDim S1600000x64 ![] Facts₀.bcast_S_S1600000x64 (constant (F := Ideal) S_ .f32 0x7FC00000#32)) := by
  dsimp only [hostOps0_2Tail, hostOps0_2, List.drop]
  after_results_simp <;> rfl

/-- So the masked read is `takeRows` of the feature matrix at the index words, whatever the stretch is entered from. -/
theorem take1 (P : Valuation τ sig (Elt Ideal)) :
    (StableHlo.after (hostOps0_2 (F := Ideal)) P (Proc.devRef .tc main_v5) : FVec Ideal S1600000x64 .f32)
      = takeRows (P (Proc.devRef .tc main_arg0)) (P (Proc.devRef .tc main_v3)) := by
  rw [hostOps0_2_split, after_append, tail1, mask1, col1, keep1]
  rfl

/-! ## The short stretches, over any contents at their entry -/

/-- The source words. -/
theorem rows0 (P : Valuation τ sig (Elt Ideal)) :
    (StableHlo.after (hostOps0 (F := Ideal)) P (Proc.devRef .tc main_v1) : IVec S1600000 32) = idxRow0 (P (Proc.devRef .tc main_arg1)) := by
  after_results_simp <;> rfl

/-- The destination words. -/
theorem rows1 (P : Valuation τ sig (Elt Ideal)) :
    (StableHlo.after (hostOps0 (F := Ideal)) P (Proc.devRef .tc main_v3) : IVec S1600000 32) = idxRow1 (P (Proc.devRef .tc main_arg1)) := by
  after_results_simp <;> rfl

theorem rows_x (P : Valuation τ sig (Elt Ideal)) :
    (StableHlo.after (hostOps0 (F := Ideal)) P (Proc.devRef .tc main_arg0) : FVec Ideal S100000x64 .f32) = (P (Proc.devRef .tc main_arg0)) := by
  after_results_simp <;> rfl

/-- The first masked read leaves the destination words and the feature matrix as they were. -/
theorem take0_dst (P : Valuation τ sig (Elt Ideal)) :
    (StableHlo.after (hostOps0_1 (F := Ideal)) P (Proc.devRef .tc main_v3) : IVec S1600000 32) = (P (Proc.devRef .tc main_v3)) := by
  after_results_simp <;> rfl

theorem take0_x (P : Valuation τ sig (Elt Ideal)) :
    (StableHlo.after (hostOps0_1 (F := Ideal)) P (Proc.devRef .tc main_arg0) : FVec Ideal S100000x64 .f32) = (P (Proc.devRef .tc main_arg0)) := by
  after_results_simp <;> rfl

/-- The second masked read leaves the first one's result as it was. -/
theorem take1_src (P : Valuation τ sig (Elt Ideal)) :
    (StableHlo.after (hostOps0_2 (F := Ideal)) P (Proc.devRef .tc main_v4) : FVec Ideal S1600000x64 .f32) = (P (Proc.devRef .tc main_v4)) := by
  after_results_simp <;> rfl

/-- The gathered rows in the narrower float format. -/
theorem cast_src (P : Valuation τ sig (Elt Ideal)) :
    (StableHlo.after (hostOps0_3 (F := Ideal)) P (Proc.devRef .tc main_v6) : FVec Ideal S1600000x64 .bf16) = truncf (F := Ideal) .bf16 ((P (Proc.devRef .tc main_v4)) : FVec Ideal S1600000x64 .f32) Facts₀.bitsLt_bf16_f32 := by
  after_results_simp <;> rfl

theorem cast_dst (P : Valuation τ sig (Elt Ideal)) :
    (StableHlo.after (hostOps0_3 (F := Ideal)) P (Proc.devRef .tc main_v7) : FVec Ideal S1600000x64 .bf16) = truncf (F := Ideal) .bf16 ((P (Proc.devRef .tc main_v5)) : FVec Ideal S1600000x64 .f32) Facts₀.bitsLt_bf16_f32 := by
  after_results_simp <;> rfl

variable (m : (ℓ : Loc nD τ sig) → Buf (Elt Ideal) ℓ) (ρ : Dev nD → PrngReg)

/-! ## The message region's nine operands -/

theorem V4_xs (c : Dev nD) :
    (V4 (F := Ideal) m ρ c main_v6 : FVec Ideal S1600000x64 .bf16)
      = truncf (F := Ideal) .bf16 (takeRows (m ((c.tc : Thread nD τ).loc main_arg0) : FVec Ideal S100000x64 .f32) (idxRow0 (m ((c.tc : Thread nD τ).loc main_arg1) : IVec S2x1600000 32))) Facts₀.bitsLt_bf16_f32 := by
  show StableHlo.after hostOps0_3 (StableHlo.after hostOps0_2 (StableHlo.after hostOps0_1 (StableHlo.after hostOps0 (W0 m ρ c)))) (Proc.devRef .tc main_v6) = _
  rw [cast_src, take1_src, take0, rows0, rows_x]

theorem V4_xd (c : Dev nD) :
    (V4 (F := Ideal) m ρ c main_v7 : FVec Ideal S1600000x64 .bf16)
      = truncf (F := Ideal) .bf16 (takeRows (m ((c.tc : Thread nD τ).loc main_arg0) : FVec Ideal S100000x64 .f32) (idxRow1 (m ((c.tc : Thread nD τ).loc main_arg1) : IVec S2x1600000 32))) Facts₀.bitsLt_bf16_f32 := by
  show StableHlo.after hostOps0_3 (StableHlo.after hostOps0_2 (StableHlo.after hostOps0_1 (StableHlo.after hostOps0 (W0 m ρ c)))) (Proc.devRef .tc main_v7) = _
  rw [cast_dst, take1, take0_dst, take0_x, rows1, rows_x]

set_option maxHeartbeats 4000000 in
theorem V4_ea (c : Dev nD) : (V4 (F := Ideal) m ρ c main_v8 : FVec Ideal S1600000x16 .bf16) = truncf (F := Ideal) .bf16 (m ((c.tc : Thread nD τ).loc main_arg2) : FVec Ideal S1600000x16 .f32) Facts₀.bitsLt_bf16_f32 := by
  show StableHlo.after hostOps0_3 (StableHlo.after hostOps0_2 (StableHlo.after hostOps0_1 (StableHlo.after hostOps0 (W0 m ρ c)))) (Proc.devRef .tc main_v8) = _
  after_results_simp <;> rfl

set_option maxHeartbeats 4000000 in
theorem V4_w1s (c : Dev nD) : (V4 (F := Ideal) m ρ c main_v10 : FVec Ideal S64x64 .bf16) = truncf (F := Ideal) .bf16 (extractStridedSlice S64x64 ![0, 0] (m ((c.tc : Thread nD τ).loc main_arg3) : FVec Ideal S144x64 .f32) Facts₀.slices_S144x64_S64x64_0_0) Facts₀.bitsLt_bf16_f32 := by
  show StableHlo.after hostOps0_3 (StableHlo.after hostOps0_2 (StableHlo.after hostOps0_1 (StableHlo.after hostOps0 (W0 m ρ c)))) (Proc.devRef .tc main_v10) = _
  after_results_simp <;> rfl

set_option maxHeartbeats 4000000 in
theorem V4_w1d (c : Dev nD) : (V4 (F := Ideal) m ρ c main_v12 : FVec Ideal S64x64 .bf16) = truncf (F := Ideal) .bf16 (extractStridedSlice S64x64 ![64, 0] (m ((c.tc : Thread nD τ).loc main_arg3) : FVec Ideal S144x64 .f32) Facts₀.slices_S144x64_S64x64_64_0) Facts₀.bitsLt_bf16_f32 := by
  show StableHlo.after hostOps0_3 (StableHlo.after hostOps0_2 (StableHlo.after hostOps0_1 (StableHlo.after hostOps0 (W0 m ρ c)))) (Proc.devRef .tc main_v12) = _
  after_results_simp <;> rfl

set_option maxHeartbeats 4000000 in
theorem V4_w1e (c : Dev nD) : (V4 (F := Ideal) m ρ c main_v14 : FVec Ideal S16x64 .bf16) = truncf (F := Ideal) .bf16 (extractStridedSlice S16x64 ![128, 0] (m ((c.tc : Thread nD τ).loc main_arg3) : FVec Ideal S144x64 .f32) Facts₀.slices_S144x64_S16x64_128_0) Facts₀.bitsLt_bf16_f32 := by
  show StableHlo.after hostOps0_3 (StableHlo.after hostOps0_2 (StableHlo.after hostOps0_1 (StableHlo.after hostOps0 (W0 m ρ c)))) (Proc.devRef .tc main_v14) = _
  after_results_simp <;> rfl

set_option maxHeartbeats 4000000 in
theorem V4_b1 (c : Dev nD) : (V4 (F := Ideal) m ρ c main_v15 : FVec Ideal S1x64 .f32) = shapeCast S1x64 (m ((c.tc : Thread nD τ).loc main_arg4) : FVec Ideal S64 .f32) Facts₀.shapeCasts_S64_S1x64 := by
  show StableHlo.after hostOps0_3 (StableHlo.after hostOps0_2 (StableHlo.after hostOps0_1 (StableHlo.after hostOps0 (W0 m ρ c)))) (Proc.devRef .tc main_v15) = _
  after_results_simp <;> rfl

set_option maxHeartbeats 4000000 in
theorem V4_w2 (c : Dev nD) : (V4 (F := Ideal) m ρ c main_v16 : FVec Ideal S64x64 .bf16) = truncf (F := Ideal) .bf16 (m ((c.tc : Thread nD τ).loc main_arg5) : FVec Ideal S64x64 .f32) Facts₀.bitsLt_bf16_f32 := by
  show StableHlo.after hostOps0_3 (StableHlo.after hostOps0_2 (StableHlo.after hostOps0_1 (StableHlo.after hostOps0 (W0 m ρ c)))) (Proc.devRef .tc main_v16) = _
  after_results_simp <;> rfl

set_option maxHeartbeats 4000000 in
theorem V4_b2 (c : Dev nD) : (V4 (F := Ideal) m ρ c main_v17 : FVec Ideal S1x64 .f32) = shapeCast S1x64 (m ((c.tc : Thread nD τ).loc main_arg6) : FVec Ideal S64 .f32) Facts₀.shapeCasts_S64_S1x64 := by
  show StableHlo.after hostOps0_3 (StableHlo.after hostOps0_2 (StableHlo.after hostOps0_1 (StableHlo.after hostOps0 (W0 m ρ c)))) (Proc.devRef .tc main_v17) = _
  after_results_simp <;> rfl

set_option maxHeartbeats 4000000 in
theorem V4_dst (c : Dev nD) : (V4 (F := Ideal) m ρ c main_v3 : IVec S1600000 32) = idxRow1 (m ((c.tc : Thread nD τ).loc main_arg1) : IVec S2x1600000 32) := by
  show StableHlo.after hostOps0_3 (StableHlo.after hostOps0_2 (StableHlo.after hostOps0_1 (StableHlo.after hostOps0 (W0 m ρ c)))) (Proc.devRef .tc main_v3) = _
  after_results_simp <;> rfl

/-! ## The arguments the second host stretch reads, at the message region's exit -/

theorem W5_arg0 (c : Dev nD) : W5 (F := Ideal) m ρ c (Proc.devRef .tc main_arg0) = m ((c.tc : Thread nD τ).loc main_arg0) := by
  refine (W5_of_ne m ρ c main_arg0 (by decide)).trans ?_
  show StableHlo.after hostOps0_3 (StableHlo.after hostOps0_2 (StableHlo.after hostOps0_1 (StableHlo.after hostOps0 (W0 m ρ c)))) (Proc.devRef .tc main_arg0) = _
  after_results_simp <;> rfl

theorem W5_arg7 (c : Dev nD) : W5 (F := Ideal) m ρ c (Proc.devRef .tc main_arg7) = m ((c.tc : Thread nD τ).loc main_arg7) := by
  refine (W5_of_ne m ρ c main_arg7 (by decide)).trans ?_
  show StableHlo.after hostOps0_3 (StableHlo.after hostOps0_2 (StableHlo.after hostOps0_1 (StableHlo.after hostOps0 (W0 m ρ c)))) (Proc.devRef .tc main_arg7) = _
  after_results_simp <;> rfl

theorem W5_arg8 (c : Dev nD) : W5 (F := Ideal) m ρ c (Proc.devRef .tc main_arg8) = m ((c.tc : Thread nD τ).loc main_arg8) := by
  refine (W5_of_ne m ρ c main_arg8 (by decide)).trans ?_
  show StableHlo.after hostOps0_3 (StableHlo.after hostOps0_2 (StableHlo.after hostOps0_1 (StableHlo.after hostOps0 (W0 m ρ c)))) (Proc.devRef .tc main_arg8) = _
  after_results_simp <;> rfl

/-- The destination words are untouched by the message region. -/
theorem W5_dst (c : Dev nD) : (W5 (F := Ideal) m ρ c (Proc.devRef .tc main_v3) : IVec S1600000 32) = idxRow1 (m ((c.tc : Thread nD τ).loc main_arg1) : IVec S2x1600000 32) :=
  (W5_of_ne m ρ c main_v3 (by decide)).trans (V4_dst m ρ c)

/-! ## The update region's five operands -/

theorem V6_x (c : Dev nD) : V6 (F := Ideal) m ρ c main_arg0 = m ((c.tc : Thread nD τ).loc main_arg0) := by
  show StableHlo.after hostOps1 (W5 m ρ c) (Proc.devRef .tc main_arg0) = _
  after_results_simp <;> (try exact W5_arg0 m ρ c)

theorem V6_agg (c : Dev nD) :
    (V6 (F := Ideal) m ρ c main_v29 : FVec Ideal S100000x64 .f32)
      = aggOf (W5 (F := Ideal) m ρ c (Proc.devRef .tc main_v18)) (W5 (F := Ideal) m ρ c (Proc.devRef .tc main_v3)) := by
  show StableHlo.after hostOps1 (W5 m ρ c) (Proc.devRef .tc main_v29) = _
  after_results_simp <;> rfl

theorem V6_wux (c : Dev nD) :
    (V6 (F := Ideal) m ρ c main_v31 : FVec Ideal S64x64 .bf16)
      = truncf (F := Ideal) .bf16 (extractStridedSlice S64x64 ![0, 0] (m ((c.tc : Thread nD τ).loc main_arg7) : FVec Ideal S128x64 .f32) Facts₀.slices_S128x64_S64x64_0_0) Facts₀.bitsLt_bf16_f32 := by
  show StableHlo.after hostOps1 (W5 m ρ c) (Proc.devRef .tc main_v31) = _
  after_results_simp
  rw [W5_arg7 m ρ c]

theorem V6_wua (c : Dev nD) :
    (V6 (F := Ideal) m ρ c main_v33 : FVec Ideal S64x64 .bf16)
      = truncf (F := Ideal) .bf16 (extractStridedSlice S64x64 ![64, 0] (m ((c.tc : Thread nD τ).loc main_arg7) : FVec Ideal S128x64 .f32) Facts₀.slices_S128x64_S64x64_64_0) Facts₀.bitsLt_bf16_f32 := by
  show StableHlo.after hostOps1 (W5 m ρ c) (Proc.devRef .tc main_v33) = _
  after_results_simp
  rw [W5_arg7 m ρ c]

theorem V6_bu (c : Dev nD) :
    (V6 (F := Ideal) m ρ c main_v34 : FVec Ideal S1x64 .f32) = shapeCast S1x64 (m ((c.tc : Thread nD τ).loc main_arg8) : FVec Ideal S64 .f32) Facts₀.shapeCasts_S64_S1x64 := by
  show StableHlo.after hostOps1 (W5 m ρ c) (Proc.devRef .tc main_v34) = _
  after_results_simp
  rw [W5_arg8 m ρ c]
  rfl

end Cert.KernelIdeal.HostIn

end
-- ==== Proof.KernelOperands.lean ====
/-
  The small operands of the two regions, read as the specification names them: a change of float format is the
  identity on the extended reals, a slice of a weight matrix is a range of its rows, a reshaped bias is a one-row matrix.
-/
import proofs.«406595_j16174846837133_1_alg».proof.Proof.Gen.KernelIdeal
import proofs.«406595_j16174846837133_1_alg».proof.Proof.Spec
import Idealize.ShloMosaic.PureOps.Ideal
import Idealize.ShloMosaic.Lib.Pipeline.Value
import Idealize.ShloMosaic.Lib.ValueIdx
import Idealize.ShloMosaic.Lib.ValueLayout

noncomputable section

namespace Cert.KernelIdeal.Operands

open Cert.KernelIdeal Cert.KernelIdeal.Facts₀ Cert.KernelIdeal.Facts Cert.EdgeConv Idealize.ShloMosaic Idealize.ShloMosaic.ValueIdx

/-- Narrowing the float format changes nothing on the extended reals. -/
theorem cast_eq {S : Shape} (x : FVec Ideal S .f32) :
    (truncf (F := Ideal) .bf16 x bitsLt_bf16_f32 : S.Idx → EReal) = x := by
  funext i
  rfl

theorem w1s_eq (w : FVec Ideal S144x64 .f32) :
    (truncf (F := Ideal) .bf16 (extractStridedSlice S64x64 ![0, 0] w slices_S144x64_S64x64_0_0) bitsLt_bf16_f32 : Mat 64 64)
      = rowsFrom 64 0 (by norm_num) (w : Mat 144 64) := by
  funext i
  rw [cast_eq]
  exact extractStridedSlice_apply _ w _ i _ fun a => by
    match a with
    | ⟨0, _⟩ => rfl
    | ⟨1, _⟩ => show (i 1).val = 0 + (i 1).val; omega

theorem w1d_eq (w : FVec Ideal S144x64 .f32) :
    (truncf (F := Ideal) .bf16 (extractStridedSlice S64x64 ![64, 0] w slices_S144x64_S64x64_64_0) bitsLt_bf16_f32 : Mat 64 64)
      = rowsFrom 64 64 (by norm_num) (w : Mat 144 64) := by
  funext i
  rw [cast_eq]
  exact extractStridedSlice_apply _ w _ i _ fun a => by
    match a with
    | ⟨0, _⟩ => rfl
    | ⟨1, _⟩ => show (i 1).val = 0 + (i 1).val; omega

theorem w1e_eq (w : FVec Ideal S144x64 .f32) :
    (truncf (F := Ideal) .bf16 (extractStridedSlice S16x64 ![128, 0] w slices_S144x64_S16x64_128_0) bitsLt_bf16_f32 : Mat 16 64)
      = rowsFrom 16 128 (by norm_num) (w : Mat 144 64) := by
  funext i
  rw [cast_eq]
  exact extractStridedSlice_apply _ w _ i _ fun a => by
    match a with
    | ⟨0, _⟩ => rfl
    | ⟨1, _⟩ => show (i 1).val = 0 + (i 1).val; omega

theorem wux_eq (w : FVec Ideal S128x64 .f32) :
    (truncf (F := Ideal) .bf16 (extractStridedSlice S64x64 ![0, 0] w slices_S128x64_S64x64_0_0) bitsLt_bf16_f32 : Mat 64 64)
      = rowsFrom 64 0 (by norm_num) (w : Mat 128 64) := by
  funext i
  rw [cast_eq]
  exact extractStridedSlice_apply _ w _ i _ fun a => by
    match a with
    | ⟨0, _⟩ => rfl
    | ⟨1, _⟩ => show (i 1).val = 0 + (i 1).val; omega

theorem wua_eq (w : FVec Ideal S128x64 .f32) :
    (truncf (F := Ideal) .bf16 (extractStridedSlice S64x64 ![64, 0] w slices_S128x64_S64x64_64_0) bitsLt_bf16_f32 : Mat 64 64)
      = rowsFrom 64 64 (by norm_num) (w : Mat 128 64) := by
  funext i
  rw [cast_eq]
  exact extractStridedSlice_apply _ w _ i _ fun a => by
    match a with
    | ⟨0, _⟩ => rfl
    | ⟨1, _⟩ => show (i 1).val = 0 + (i 1).val; omega

/-- A 64-vector reshaped to 1 × 64 is that vector as a one-row matrix. -/
theorem row_eq (b : FVec Ideal S64 .f32) :
    (shapeCast S1x64 b shapeCasts_S64_S1x64 : Mat 1 64) = asRow b := by
  funext i
  obtain ⟨u, q, rfl⟩ : ∃ u q, i = ix2 u q := ⟨_, _, eq_ix2 i⟩
  exact shapeCast_a_1a_apply b _ u q

end Cert.KernelIdeal.Operands

end
-- ==== Proof.Mask.lean ====
/-
  Under the index-range precondition the masked read is the plain read.

  Every word `v` of the edge table satisfies -100000 ≤ v < 100000. Wrapped (`v + 100000` when `v < 0`, no overflow at
  32 bits) it lies in [0, 99999], so the range mask is set on every edge and the select never takes its filler branch.
-/
import proofs.«406595_j16174846837133_1_alg».proof.Defs
import proofs.«406595_j16174846837133_1_alg».proof.Proof.Gen.KernelIdeal
import proofs.«406595_j16174846837133_1_alg».proof.Proof.Gen.Pre_finite_inputs
import proofs.«406595_j16174846837133_1_alg».proof.Proof.HostTerms
import Idealize.ShloMosaic.PureOps.Ideal
import Idealize.ShloMosaic.Lib.ValueIdx
import Idealize.ShloMosaic.Lib.ReduceAll
import Idealize.ShloMosaic.Lib.Pipeline.Value
import Idealize.ShloMosaic.Lib.StableHlo.Predicate

noncomputable section

namespace Cert.KernelIdeal.Mask

open Cert.KernelIdeal Cert.KernelIdeal.HostTerms Idealize.ShloMosaic Idealize.ShloMosaic.ValueIdx Idealize.SL.Sem
open Cert.KernelIdeal.Facts₀

/-! ## Words -/

/-- A left fold by `and` from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- An and-reduction from the constant 1 of an array of ones is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ fun n _ => hx n

/-- The wrapped word of a word in [-100000, 100000) lies in [0, 99999]: a negative word plus 100000 does not overflow. -/
theorem wrap_word_range (a : BitVec 32) (h : (-100000 : ℤ) ≤ a.toInt ∧ a.toInt < 100000) :
    (0 : ℤ) ≤ (Scalar.select (IntOp.cmpi .slt a 0#32) (IntOp.addi a 100000#32) a).toInt
      ∧ (Scalar.select (IntOp.cmpi .slt a 0#32) (IntOp.addi a 100000#32) a).toInt ≤ 99999 := by
  have h0 : (0#32 : BitVec 32).toInt = 0 := by decide
  have hc : (100000#32 : BitVec 32).toInt = 100000 := by decide
  by_cases hneg : a.toInt < 0
  · have hb : IntOp.cmpi .slt a 0#32 = 1#1 := IntOp.cmpi_slt.2 (by rw [h0]; exact hneg)
    rw [hb, select_one]
    have hs : (IntOp.addi a 100000#32).toInt = a.toInt + 100000 := by
      rw [IntOp.addi, BitVec.toInt_add, hc]
      exact Int.bmod_eq_of_le (by omega) (by omega)
    rw [hs]; omega
  · have hb : IntOp.cmpi .slt a 0#32 = 0#1 := eq_zero_of_ne_one fun e => hneg (by have := IntOp.cmpi_slt.1 e; rwa [h0] at this)
    rw [hb, select_zero]; omega

/-! ## The mask -/

/-- The wrapped word at an index: the word plus 100000 where it is negative, else the word. -/
theorem wrapIdx_apply (v : IVec S1600000 32) (k : S1600000.Idx) :
    wrapIdx v k = Scalar.select (IntOp.cmpi .slt (v k) 0#32) (IntOp.addi (v k) 100000#32) (v k) := rfl

/-- Over words that all lie in [0, 99999] the range mask is set on every edge. -/
theorem inRangeMask_eq_one (w : IVec S1600000 32) (hw : ∀ k, (0 : ℤ) ≤ (w k).toInt ∧ (w k).toInt ≤ 99999)
    (k : S1600000.Idx) : inRangeMask w k = 1#1 := by
  unfold inRangeMask
  refine reduce_andi_of_all _ _ _ _ rfl (fun p => ?_) k
  obtain ⟨k', hk'⟩ : ∃ k', idxCol w p = w k' := ⟨_, rfl⟩
  show IntOp.andi (IntOp.cmpi .sge (idxCol w p) 0#32) (IntOp.cmpi .sle (idxCol w p) 99999#32) = 1#1
  rw [hk', IntOp.andi_eq_one, IntOp.cmpi_sge, IntOp.cmpi_sle, show (0#32 : BitVec 32).toInt = 0 from by decide,
    show (99999#32 : BitVec 32).toInt = 99999 from by decide]
  exact hw k'

/-- With every word in [-100000, 100000) the masked read of rows is the plain read. -/
theorem takeRows_eq_gatherRows (x : FVec Ideal S100000x64 .f32) (v : IVec S1600000 32)
    (h : ∀ i, (-100000 : ℤ) ≤ (v i).toInt ∧ (v i).toInt < 100000) :
    takeRows x v = gatherRows x (wrapIdx v) := by
  have hw : ∀ k, (0 : ℤ) ≤ (wrapIdx v k).toInt ∧ (wrapIdx v k).toInt ≤ 99999 := fun k => by
    rw [wrapIdx_apply]; exact wrap_word_range (v k) (h k)
  funext i
  unfold takeRows
  rw [select_apply]
  have hm : broadcastInDim S1600000x64 ![0] bcast_S1600000_S1600000x64_0 (inRangeMask (wrapIdx v)) i = 1#1 := by
    unfold broadcastInDim
    exact inRangeMask_eq_one _ hw _
  rw [hm, select_one]

/-! ## The precondition, decoded -/

/-- The precondition bounds every word of the edge table. -/
theorem table_range (m : (ℓ : Loc nD τ sig) → Buf (Elt Ideal) ℓ) (hpre : Cert.Pre_KernelIdeal m) (c : Dev nD)
    (j : S2x1600000.Idx) :
    (-100000 : ℤ) ≤ ((m ((c.tc : Thread nD τ).loc main_arg1) : IVec S2x1600000 32) j).toInt
      ∧ ((m ((c.tc : Thread nD τ).loc main_arg1) : IVec S2x1600000 32) j).toInt < 100000 := by
  haveI : Subsingleton (Cert.Pre_finite_inputs.S_).Idx := ⟨fun a b => funext fun d => d.elim0⟩
  have e := congrFun (hpre c) ix0
  dsimp only [Cert.Pre_finite_inputs.fn, Cert.Pre_finite_inputs.fn_part1, Cert.Pre_finite_inputs.fn_part2] at e
  -- the predicate is a conjunction whose last two conjuncts are the two bounds, each an "all" over the table
  obtain ⟨e1, hlt⟩ := IntOp.andi_eq_one.1 e
  obtain ⟨-, hge⟩ := IntOp.andi_eq_one.1 e1
  -- each "all" holds at the word (j); the compared constant, broadcast, is the constant there
  have hge' : IntOp.cmpi .sge ((m ((c.tc : Thread nD τ).loc main_arg1) : IVec S2x1600000 32) j) 4294867296#32 = 1#1 :=
    Host.reduce_andi_all _ _ _ _ _ hge j
  have hlt' : IntOp.cmpi .slt ((m ((c.tc : Thread nD τ).loc main_arg1) : IVec S2x1600000 32) j) 100000#32 = 1#1 :=
    Host.reduce_andi_all _ _ _ _ _ hlt j
  have h1 := IntOp.cmpi_sge.1 hge'
  have h2 := IntOp.cmpi_slt.1 hlt'
  rw [show (4294867296#32 : BitVec 32).toInt = -100000 from by decide] at h1
  rw [show (100000#32 : BitVec 32).toInt = 100000 from by decide] at h2
  exact ⟨h1, h2⟩

/-! ## The two rows of the table -/

/-- Row 0 of the table, as a flat vector, reads the table at (0, i). -/
theorem idxRow0_apply (ei : IVec S2x1600000 32) (i : S1600000.Idx) :
    idxRow0 ei i = ei (ix2 (n0 := 2) (n1 := 1600000) 0 (i 0)) := by
  unfold idxRow0
  refine (shapeCast_apply _ shapeCasts_S1x1600000_S1600000 i (ix2 (n0 := 1) (n1 := 1600000) 0 (i 0)) ?_).trans ?_
  · rw [Shape.rowMajor_val_two, Shape.rowMajor_val_one]
    show 0 * 1600000 + (i 0).val = (i 0).val
    omega
  · refine extractStridedSlice_apply _ ei slices_S2x1600000_S1x1600000_0_0 _ _ fun a => ?_
    match a with
    | ⟨0, _⟩ => rfl
    | ⟨1, _⟩ => show (i 0).val = 0 + (i 0).val; omega

/-- Row 1 of the table, as a flat vector, reads the table at (1, i). -/
theorem idxRow1_apply (ei : IVec S2x1600000 32) (i : S1600000.Idx) :
    idxRow1 ei i = ei (ix2 (n0 := 2) (n1 := 1600000) 1 (i 0)) := by
  unfold idxRow1
  refine (shapeCast_apply _ shapeCasts_S1x1600000_S1600000 i (ix2 (n0 := 1) (n1 := 1600000) 0 (i 0)) ?_).trans ?_
  · rw [Shape.rowMajor_val_two, Shape.rowMajor_val_one]
    show 0 * 1600000 + (i 0).val = (i 0).val
    omega
  · refine extractStridedSlice_apply _ ei slices_S2x1600000_S1x1600000_1_0 _ _ fun a => ?_
    match a with
    | ⟨0, _⟩ => rfl
    | ⟨1, _⟩ => show (i 0).val = 0 + (i 0).val; omega

/-- So both rows of the table, as flat vectors, are bounded. -/
theorem rows_range (ei : IVec S2x1600000 32) (h : ∀ j, (-100000 : ℤ) ≤ (ei j).toInt ∧ (ei j).toInt < 100000) :
    (∀ i, (-100000 : ℤ) ≤ (idxRow0 ei i).toInt ∧ (idxRow0 ei i).toInt < 100000)
      ∧ (∀ i, (-100000 : ℤ) ≤ (idxRow1 ei i).toInt ∧ (idxRow1 ei i).toInt < 100000) := by
  exact ⟨fun i => by rw [idxRow0_apply]; exact h _, fun i => by rw [idxRow1_apply]; exact h _⟩

end Cert.KernelIdeal.Mask

end
-- ==== Proof.Region0.lean ====
/-
  What the message region leaves in its output array: block by block, each grid point writes the messages of its
  16000 edges, and the hundred blocks tile the 1600000 rows; so the array ends at `msg` of the nine operand arrays
  as the region finds them.
-/
import proofs.«406595_j16174846837133_1_alg».proof.Proof.Gen.KernelIdeal.Frame
import proofs.«406595_j16174846837133_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region0

open Cert.KernelIdeal Cert.KernelIdeal.Gen Cert.EdgeConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block products at an index

First the operand indices of the two contraction records, axis by axis: the left operand is read at the output's row
and the contraction index, the right operand at the contraction index and the output's column. -/

theorem lhs64_0 (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
theorem lhs64_1 (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
theorem rhs64_0 (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
theorem rhs64_1 (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- A 16000×64 by 64×64 block product into the zero splat, at row `p` and column `q`: the 64-term sum. -/
theorem prod64_apply (l : FVec Ideal S16000x64 .bf16) (r : FVec Ideal S64x64 .bf16) (p : Fin 16000) (q : Fin 64) :
    matmul dot_S16000x64_S64x64_S16000x64_1_0_0_1_n_n none l r (constant (F := Ideal) S16000x64 .f32 0x00000000#32) (ix2 p q)
      = ∑ k : Fin 64, l (ix2 p k) * r (ix2 k q) := by
  refine (Ideal.matmul_constant_zero_apply dot_S16000x64_S64x64_S16000x64_1_0_0_1_n_n none l r (ix2 p q)).trans ?_
  rw [← Equiv.sum_comp (ValueIdx.contrEquiv1 dot_S16000x64_S64x64_S16000x64_1_0_0_1_n_n 64 rfl rfl).symm]
  refine Finset.sum_congr rfl fun k _ => ?_
  have hk := ValueIdx.contrEquiv1_symm_val dot_S16000x64_S64x64_S16000x64_1_0_0_1_n_n 64 rfl rfl k
  have el : dot_S16000x64_S64x64_S16000x64_1_0_0_1_n_n.lhsIdx (ix2 p q) ((ValueIdx.contrEquiv1 dot_S16000x64_S64x64_S16000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S16000x64_S64x64_S16000x64_1_0_0_1_n_n.rhsIdx (ix2 p q) ((ValueIdx.contrEquiv1 dot_S16000x64_S64x64_S16000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

theorem lhs16_0 (i : S16000x64.Idx) (q : dot_S16000x16_S16x64_S16000x64_1_0_0_1_n_n.contr.Idx) :
    (dot_S16000x16_S16x64_S16000x64_1_0_0_1_n_n.lhsIdx i q 0).val = (i 0).val := by
  unfold DotDims.lhsIdx
  rw [dif_neg (show ¬(0 : Fin S16000x16.rank) ∈ dot_S16000x16_S16x64_S16000x64_1_0_0_1_n_n.lhsBatch by decide), dif_pos (show (0 : Fin S16000x16.rank) ∈ dot_S16000x16_S16x64_S16000x64_1_0_0_1_n_n.lhsNonContracting by decide)]
  rfl
theorem lhs16_1 (i : S16000x64.Idx) (q : dot_S16000x16_S16x64_S16000x64_1_0_0_1_n_n.contr.Idx) :
    (dot_S16000x16_S16x64_S16000x64_1_0_0_1_n_n.lhsIdx i q 1).val = (q ⟨0, by decide⟩).val :=
  dot_S16000x16_S16x64_S16000x64_1_0_0_1_n_n.lhsIdx_val_of_single rfl i q
theorem rhs16_0 (i : S16000x64.Idx) (q : dot_S16000x16_S16x64_S16000x64_1_0_0_1_n_n.contr.Idx) :
    (dot_S16000x16_S16x64_S16000x64_1_0_0_1_n_n.rhsIdx i q 0).val = (q ⟨0, by decide⟩).val :=
  dot_S16000x16_S16x64_S16000x64_1_0_0_1_n_n.rhsIdx_val_of_single rfl i q
theorem rhs16_1 (i : S16000x64.Idx) (q : dot_S16000x16_S16x64_S16000x64_1_0_0_1_n_n.contr.Idx) :
    (dot_S16000x16_S16x64_S16000x64_1_0_0_1_n_n.rhsIdx i q 1).val = (i 1).val := by
  unfold DotDims.rhsIdx
  rw [dif_neg (show ¬(1 : Fin S16x64.rank) ∈ dot_S16000x16_S16x64_S16000x64_1_0_0_1_n_n.rhsBatch by decide), dif_pos (show (1 : Fin S16x64.rank) ∈ dot_S16000x16_S16x64_S16000x64_1_0_0_1_n_n.rhsNonContracting by decide)]
  rfl

/-- A 16000×16 by 16×64 block product into the zero splat, at row `p` and column `q`: the 16-term sum. -/
theorem prod16_apply (l : FVec Ideal S16000x16 .bf16) (r : FVec Ideal S16x64 .bf16) (p : Fin 16000) (q : Fin 64) :
    matmul dot_S16000x16_S16x64_S16000x64_1_0_0_1_n_n none l r (constant (F := Ideal) S16000x64 .f32 0x00000000#32) (ix2 p q)
      = ∑ k : Fin 16, l (ix2 p k) * r (ix2 k q) := by
  refine (Ideal.matmul_constant_zero_apply dot_S16000x16_S16x64_S16000x64_1_0_0_1_n_n none l r (ix2 p q)).trans ?_
  rw [← Equiv.sum_comp (ValueIdx.contrEquiv1 dot_S16000x16_S16x64_S16000x64_1_0_0_1_n_n 16 rfl rfl).symm]
  refine Finset.sum_congr rfl fun k _ => ?_
  have hk := ValueIdx.contrEquiv1_symm_val dot_S16000x16_S16x64_S16000x64_1_0_0_1_n_n 16 rfl rfl k
  have el : dot_S16000x16_S16x64_S16000x64_1_0_0_1_n_n.lhsIdx (ix2 p q) ((ValueIdx.contrEquiv1 dot_S16000x16_S16x64_S16000x64_1_0_0_1_n_n 16 rfl rfl).symm k) = ix2 p k := funext fun a => Fin.ext (by
    match a with
    | ⟨0, _⟩ => exact lhs16_0 _ _
    | ⟨1, _⟩ => exact (lhs16_1 _ _).trans hk)
  have er : dot_S16000x16_S16x64_S16000x64_1_0_0_1_n_n.rhsIdx (ix2 p q) ((ValueIdx.contrEquiv1 dot_S16000x16_S16x64_S16000x64_1_0_0_1_n_n 16 rfl rfl).symm k) = ix2 k q := funext fun a => Fin.ext (by
    match a with
    | ⟨0, _⟩ => exact (rhs16_0 _ _).trans hk
    | ⟨1, _⟩ => exact rhs16_1 _ _)
  rw [el, er]

/-! ## The body's arithmetic at an index -/

/-- The rectifier and the narrowing after it, at an index: the maximum with zero. -/
theorem relu_apply (h : FVec Ideal S16000x64 .f32) (p : Fin 16000) (k : Fin 64) :
    truncf .bf16 (maximumf h (broadcast S16000x64 (Scalar.ofBits (F := Ideal) .f32 0x00000000#32))) bitsLt_bf16_f32 (ix2 p k)
      = max (h (ix2 p k)) 0 := by
  show max (h (ix2 p k)) (Ideal.ofBits .f32 0x00000000#32) = _
  rw [Ideal.ofBits_zero_f32]

/-- The three block products and the bias row, at row `p` and hidden unit `k`: the pre-activation. -/
theorem hidden_apply (x0 x1 : FVec Ideal S16000x64 .bf16) (x2 : FVec Ideal S16000x16 .bf16) (x3 x4 : FVec Ideal S64x64 .bf16)
    (x5 : FVec Ideal S16x64 .bf16) (x6 : FVec Ideal S1x64 .f32) (p : Fin 16000) (k : Fin 64) :
    addf (addf (addf (matmul dot_S16000x64_S64x64_S16000x64_1_0_0_1_n_n none x0 x3 (constant (F := Ideal) S16000x64 .f32 0x00000000#32))
        (matmul dot_S16000x64_S64x64_S16000x64_1_0_0_1_n_n none x1 x4 (constant (F := Ideal) S16000x64 .f32 0x00000000#32)))
        (matmul dot_S16000x16_S16x64_S16000x64_1_0_0_1_n_n none x2 x5 (constant (F := Ideal) S16000x64 .f32 0x00000000#32)))
        (broadcastTo S16000x64 x6 broadcasts_S1x64_S16000x64) (ix2 p k)
      = preAct x0 x1 x2 x3 x4 x5 x6 p k := by
  unfold preAct
  exact congrArg₂ (· + ·) (congrArg₂ (· + ·) (congrArg₂ (· + ·) (prod64_apply x0 x3 p k) (prod64_apply x1 x4 p k)) (prod16_apply x2 x5 p k))
    (broadcastTo_1b_ab_apply x6 broadcasts_S1x64_S16000x64 p k)

/-- The body's stored value at row `p`, column `q` of its blocks: the message of row `p` at unit `q`. -/
theorem pay_apply (x0 x1 : Vec Ideal S16000x64 .bf16) (x2 : Vec Ideal S16000x16 .bf16) (x3 x4 : Vec Ideal S64x64 .bf16)
    (x5 : Vec Ideal S16x64 .bf16) (x6 : Vec Ideal S1x64 .f32) (x7 : Vec Ideal S64x64 .bf16) (x8 : Vec Ideal S1x64 .f32)
    (p : Fin 16000) (q : Fin 64) :
    k0_pay1 (F := Ideal) x0 x1 x2 x3 x4 x5 x6 x7 x8 (ix2 p q) = msgAt x0 x1 x2 x3 x4 x5 x6 x7 x8 p q := by
  unfold k0_pay1 msgAt
  simp only [shapeCast_self]
  refine congrArg₂ (· + ·) ?_ (broadcastTo_1b_ab_apply x8 broadcasts_S1x64_S16000x64 p q)
  refine (prod64_apply _ x7 p q).trans ?_
  refine Finset.sum_congr rfl fun k _ => ?_
  refine congrArg (· * x7 (ix2 k q)) ?_
  refine (relu_apply _ p k).trans ?_
  exact congrArg (max · 0) (hidden_apply x0 x1 x2 x3 x4 x5 x6 p k)

/-! ## The blocks, read off the arrays -/

/-- The message of an edge depends on the three edge-indexed operands only through that edge's rows. -/
theorem msgAt_congr {E E' : Nat} (xs xd : Mat E 64) (ea : Mat E 16) (xs' xd' : Mat E' 64) (ea' : Mat E' 16)
    (ws wd : Mat 64 64) (we : Mat 16 64) (b1 : Mat 1 64) (w2 : Mat 64 64) (b2 : Mat 1 64)
    (ws' wd' : Mat 64 64) (we' : Mat 16 64) (b1' : Mat 1 64) (w2' : Mat 64 64) (b2' : Mat 1 64)
    (e : Fin E) (e' : Fin E') (j : Fin 64)
    (h0 : ∀ k : Fin 64, xs (ix2 e k) = xs' (ix2 e' k)) (h1 : ∀ k : Fin 64, xd (ix2 e k) = xd' (ix2 e' k))
    (h2 : ∀ k : Fin 16, ea (ix2 e k) = ea' (ix2 e' k))
    (h3 : ws = ws') (h4 : wd = wd') (h5 : we = we') (h6 : b1 = b1') (h7 : w2 = w2') (h8 : b2 = b2') :
    msgAt xs xd ea ws wd we b1 w2 b2 e j = msgAt xs' xd' ea' ws' wd' we' b1' w2' b2' e' j := by
  subst h3 h4 h5 h6 h7 h8
  unfold msgAt preAct
  simp only [h0, h1, h2]

/-- Two functions on the 16000×64 block indices agree when they agree at every row and column. -/
theorem ext_block {α : Type} (f g : S16000x64.Idx → α) (h : ∀ (p : Fin 16000) (q : Fin 64), f (ix2 p q) = g (ix2 p q)) : f = g :=
  funext fun j => by rw [eq_ix2 j]; exact h _ _

theorem zeros : (![0, 0] : Fin 2 → Nat) = fun _ => 0 := funext fun a => by fin_cases a <;> rfl

/-- The printed index maps over the grid: a row window's block index is the grid point itself on the row axis, -/
theorem index_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

/-- and the weight and bias windows are whole at every point: block index zero. -/
theorem index_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `t · 16000 + p` is one of the array's 1600000 rows. -/
theorem row_lt (t : Fin cfg0.N) (p : Fin 16000) : t.val * 16000 + p.val < 1600000 := by
  have ht : t.val < grid0.N := t.isLt
  rw [N_0] at ht
  have hp : p.val < 16000 := p.isLt
  omega

/-- Row `p` of a row window's block at point `t` is row `t · 16000 + p` of its array: the x[src] rows, -/
theorem src_row (c : Dev nD) (t : Fin cfg0.N) (p : Fin 16000) (k : Fin 64) :
    (iblk0 (F := Ideal) V c 0 t : Vec Ideal S16000x64 .bf16) (ix2 p k)
      = (V c main_v6 : Vec Ideal S1600000x64 .bf16) (ix2 ⟨t.val * 16000 + p.val, row_lt t p⟩ k) := by
  obtain ⟨e0, e1, -⟩ := index_rows t
  show V c main_v6 (((cfg0.win 0).blk t).view.emb (ix2 p k)) = _
  refine congrArg (V c main_v6) ?_
  funext a; apply Fin.ext
  match a with
  | ⟨0, _⟩ => show win0_0.index t (0 : Fin 2) * 16000 + 1 * p.val = t.val * 16000 + p.val; rw [e0]; omega
  | ⟨1, _⟩ => show win0_0.index t (1 : Fin 2) * 64 + 1 * k.val = k.val; rw [e1]; omega

/-- the x[dst] rows, -/
theorem dst_row (c : Dev nD) (t : Fin cfg0.N) (p : Fin 16000) (k : Fin 64) :
    (iblk0 (F := Ideal) V c 1 t : Vec Ideal S16000x64 .bf16) (ix2 p k)
      = (V c main_v7 : Vec Ideal S1600000x64 .bf16) (ix2 ⟨t.val * 16000 + p.val, row_lt t p⟩ k) := by
  obtain ⟨-, -, e0, e1, -⟩ := index_rows t
  show V c main_v7 (((cfg0.win 1).blk t).view.emb (ix2 p k)) = _
  refine congrArg (V c main_v7) ?_
  funext a; apply Fin.ext
  match a with
  | ⟨0, _⟩ => show win0_1.index t (0 : Fin 2) * 16000 + 1 * p.val = t.val * 16000 + p.val; rw [e0]; omega
  | ⟨1, _⟩ => show win0_1.index t (1 : Fin 2) * 64 + 1 * k.val = k.val; rw [e1]; omega

/-- and the edge attributes. -/
theorem attr_row (c : Dev nD) (t : Fin cfg0.N) (p : Fin 16000) (k : Fin 16) :
    (iblk0 (F := Ideal) V c 2 t : Vec Ideal S16000x16 .bf16) (ix2 p k)
      = (V c main_v8 : Vec Ideal S1600000x16 .bf16) (ix2 ⟨t.val * 16000 + p.val, row_lt t p⟩ k) := by
  obtain ⟨-, -, -, -, e0, e1, -⟩ := index_rows t
  show V c main_v8 (((cfg0.win 2).blk t).view.emb (ix2 p k)) = _
  refine congrArg (V c main_v8) ?_
  funext a; apply Fin.ext
  match a with
  | ⟨0, _⟩ => show win0_2.index t (0 : Fin 2) * 16000 + 1 * p.val = t.val * 16000 + p.val; rw [e0]; omega
  | ⟨1, _⟩ => show win0_2.index t (1 : Fin 2) * 16 + 1 * k.val = k.val; rw [e1]; omega

/-- A weight or bias window's block at any point is its whole array: the three first-layer weights, -/
theorem ws_whole (c : Dev nD) (t : Fin cfg0.N) :
    (iblk0 (F := Ideal) V c 3 t : Vec Ideal S64x64 .bf16) = (V c main_v10 : Vec Ideal S64x64 .bf16) := by
  obtain ⟨e0, e1, -⟩ := index_whole t
  funext y
  show V c main_v10 (((cfg0.win 3).blk t).view.emb y) = V c main_v10 y
  refine congrArg (V c main_v10) ?_
  funext a; apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

theorem wd_whole (c : Dev nD) (t : Fin cfg0.N) :
    (iblk0 (F := Ideal) V c 4 t : Vec Ideal S64x64 .bf16) = (V c main_v12 : Vec Ideal S64x64 .bf16) := by
  obtain ⟨-, -, e0, e1, -⟩ := index_whole t
  funext y
  show V c main_v12 (((cfg0.win 4).blk t).view.emb y) = V c main_v12 y
  refine congrArg (V c main_v12) ?_
  funext a; apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

theorem we_whole (c : Dev nD) (t : Fin cfg0.N) :
    (iblk0 (F := Ideal) V c 5 t : Vec Ideal S16x64 .bf16) = (V c main_v14 : Vec Ideal S16x64 .bf16) := by
  obtain ⟨-, -, -, -, e0, e1, -⟩ := index_whole t
  funext y
  show V c main_v14 (((cfg0.win 5).blk t).view.emb y) = V c main_v14 y
  refine congrArg (V c main_v14) ?_
  funext a; apply Fin.ext
  match a with
  | ⟨0, _⟩ => show win0_5.index t (0 : Fin 2) * 16 + 1 * (y 0).val = (y 0).val; rw [e0]; omega
  | ⟨1, _⟩ => show win0_5.index t (1 : Fin 2) * 64 + 1 * (y 1).val = (y 1).val; rw [e1]; omega

/-- the first bias row, -/
theorem b1_whole (c : Dev nD) (t : Fin cfg0.N) :
    (iblk0 (F := Ideal) V c 6 t : Vec Ideal S1x64 .f32) = (V c main_v15 : Vec Ideal S1x64 .f32) := by
  obtain ⟨-, -, -, -, -, -, e0, e1, -⟩ := index_whole t
  funext y
  show V c main_v15 (((cfg0.win 6).blk t).view.emb y) = V c main_v15 y
  refine congrArg (V c main_v15) ?_
  funext a; apply Fin.ext
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

/-- the second-layer weight, -/
theorem w2_whole (c : Dev nD) (t : Fin cfg0.N) :
    (iblk0 (F := Ideal) V c 7 t : Vec Ideal S64x64 .bf16) = (V c main_v16 : Vec Ideal S64x64 .bf16) := by
  obtain ⟨-, -, -, -, -, -, -, -, e0, e1, -⟩ := index_whole t
  funext y
  show V c main_v16 (((cfg0.win 7).blk t).view.emb y) = V c main_v16 y
  refine congrArg (V c main_v16) ?_
  funext a; apply Fin.ext
  match a with
  | ⟨0, _⟩ => show win0_7.index t (0 : Fin 2) * 64 + 1 * (y 0).val = (y 0).val; rw [e0]; omega
  | ⟨1, _⟩ => show win0_7.index t (1 : Fin 2) * 64 + 1 * (y 1).val = (y 1).val; rw [e1]; omega

/-- and the second bias row. -/
theorem b2_whole (c : Dev nD) (t : Fin cfg0.N) :
    (iblk0 (F := Ideal) V c 8 t : Vec Ideal S1x64 .f32) = (V c main_v17 : Vec Ideal S1x64 .f32) := by
  obtain ⟨-, -, -, -, -, -, -, -, -, -, e0, e1⟩ := index_whole t
  funext y
  show V c main_v17 (((cfg0.win 8).blk t).view.emb y) = V c main_v17 y
  refine congrArg (V c main_v17) ?_
  funext a; apply Fin.ext
  match a with
  | ⟨0, _⟩ => show win0_8.index t (0 : Fin 2) * 1 + 1 * (y 0).val = (y 0).val; rw [e0]; omega
  | ⟨1, _⟩ => show win0_8.index t (1 : Fin 2) * 64 + 1 * (y 1).val = (y 1).val; rw [e1]; omega

/-- Where row `p`, column `q` of the output's block at point `t` sits in the output array. -/
theorem out_emb (t : Fin cfg0.N) (p : Fin 16000) (q : Fin 64) :
    (((cfg0.win 9).blk t).view.emb (ix2 p q) : S1600000x64.Idx) = ix2 ⟨t.val * 16000 + p.val, row_lt t p⟩ q := by
  obtain ⟨-, -, -, -, -, -, e0, e1⟩ := index_rows t
  funext a; apply Fin.ext
  match a with
  | ⟨0, _⟩ => show win0_9.index t (0 : Fin 2) * 16000 + 1 * p.val = t.val * 16000 + p.val; rw [e0]; omega
  | ⟨1, _⟩ => show win0_9.index t (1 : Fin 2) * 64 + 1 * q.val = q.val; rw [e1]; omega

/-! ## What each point writes back, and the whole array -/

/-- What point `t` writes back is block `t` of the messages of the nine operand arrays. -/
theorem flushed_eq (c : Dev nD) (t : Fin cfg0.N) :
    (dat0 (F := Ideal) V c).flushed 9 t
      = ((cfg0.win 9).blk t).view.read (Elt Ideal) (msg (V c main_v6) (V c main_v7) (V c main_v8) (V c main_v10) (V c main_v12) (V c main_v14) (V c main_v15) (V c main_v16) (V c main_v17)) := by
  show (cfg0.win 9).cut (grid0.coords t) ((dat0 (F := Ideal) V c).after 9 t) = _
  rw [after0_9]
  unfold out0_9
  rw [View.canon_unit_zero zeros]
  simp only [View.ld_unit_zero (S := S16000x64) zeros, View.ld_unit_zero (S := S16000x16) zeros, View.ld_unit_zero (S := S64x64) zeros,
    View.ld_unit_zero (S := S16x64) zeros, View.ld_unit_zero (S := S1x64) zeros]
  refine ext_block _ _ fun p q => ?_
  show k0_pay1 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 p q)
    = msg (V c main_v6) (V c main_v7) (V c main_v8) (V c main_v10) (V c main_v12) (V c main_v14) (V c main_v15) (V c main_v16) (V c main_v17) (((cfg0.win 9).blk t).view.emb (ix2 p q))
  refine (pay_apply (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
  refine Eq.trans ?_ (congrArg (msg (V c main_v6) (V c main_v7) (V c main_v8) (V c main_v10) (V c main_v12) (V c main_v14) (V c main_v15) (V c main_v16) (V c main_v17)) (out_emb t p q)).symm
  exact msgAt_congr (iblk0 V c 0 t) (iblk0 V c 1 t) (iblk0 V c 2 t) (V c main_v6) (V c main_v7) (V c main_v8)
    (iblk0 V c 3 t) (iblk0 V c 4 t) (iblk0 V c 5 t) (iblk0 V c 6 t) (iblk0 V c 7 t) (iblk0 V c 8 t)
    (V c main_v10) (V c main_v12) (V c main_v14) (V c main_v15) (V c main_v16) (V c main_v17)
    p ⟨t.val * 16000 + p.val, row_lt t p⟩ q
    (src_row V c t p) (dst_row V c t p) (attr_row V c t p)
    (ws_whole V c t) (wd_whole V c t) (we_whole V c t) (b1_whole V c t) (w2_whole V c t) (b2_whole V c t)

/-- An index of the output array is in point `t`'s block iff each coordinate is in the block's range on its axis. -/
theorem mem_blk (t : Fin cfg0.N) (i : S1600000x64.Idx) :
    i ∈ ((cfg0.win 9).blk t).view.set ↔ ∀ a : Fin 2, win0_9.index t a * S16000x64.size a ≤ (i a).val ∧ (i a).val < win0_9.index t a * S16000x64.size a + S16000x64.size a := by
  show i ∈ ((View.whole main_v18).slice (win0_9.rect t)).set ↔ _
  rw [View.set_slice_whole, Rect.mem_set_unit]
  exact Iff.rfl

/-- The hundred blocks tile the rows: row `r` is in the block of point `r / 16000`. -/
theorem covered (i : S1600000x64.Idx) :
    ∃ t : Fin cfg0.N, (cfg0.win 9).flush t = true ∧ i ∈ ((cfg0.win 9).blk t).view.set := by
  have hi0 : (i 0).val < 1600000 := (i 0).isLt
  have hi1 : (i 1).val < 64 := (i 1).isLt
  have ht : (i 0).val / 16000 < grid0.N := by rw [N_0]; omega
  obtain ⟨-, -, -, -, -, -, e0, e1⟩ := index_rows ⟨(i 0).val / 16000, ht⟩
  have e0' : win0_9.index ⟨(i 0).val / 16000, ht⟩ (0 : Fin 2) = (i 0).val / 16000 := e0
  refine ⟨⟨(i 0).val / 16000, ht⟩, flush0_9 _, ?_⟩
  rw [mem_blk]
  intro a
  match a with
  | ⟨0, _⟩ =>
    show win0_9.index ⟨(i 0).val / 16000, ht⟩ (0 : Fin 2) * 16000 ≤ (i 0).val
      ∧ (i 0).val < win0_9.index ⟨(i 0).val / 16000, ht⟩ (0 : Fin 2) * 16000 + 16000
    rw [e0']; omega
  | ⟨1, _⟩ =>
    show win0_9.index ⟨(i 0).val / 16000, ht⟩ (1 : Fin 2) * 64 ≤ (i 1).val
      ∧ (i 1).val < win0_9.index ⟨(i 0).val / 16000, ht⟩ (1 : Fin 2) * 64 + 64
    rw [e1]; omega

/-- The message region's output array after its last grid point. -/
theorem final0 (c : Dev nD) :
    (dat0 (F := Ideal) V c).arrAt 9 cfg0.N
      = msg (V c main_v6) (V c main_v7) (V c main_v8) (V c main_v10) (V c main_v12) (V c main_v14) (V c main_v15) (V c main_v16) (V c main_v17) :=
  (dat0 (F := Ideal) V c).arrAt_eq_of_cover 9 (msg (V c main_v6) (V c main_v7) (V c main_v8) (V c main_v10) (V c main_v12) (V c main_v14) (V c main_v15) (V c main_v16) (V c main_v17))
    (fun t _ => flushed_eq V c t) covered

end Cert.KernelIdeal.Region0

end
-- ==== Proof.Region1.lean ====
/-
  What the update region leaves in its output array: each of the ten grid points writes the updated features of its
  10000 nodes, and the ten blocks tile the 100000 rows; so the array ends at `upd` of the five operand arrays as the
  region finds them.
-/
import proofs.«406595_j16174846837133_1_alg».proof.Proof.Gen.KernelIdeal.Frame
import proofs.«406595_j16174846837133_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region1

open Cert.KernelIdeal Cert.KernelIdeal.Gen Cert.EdgeConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at an index -/

theorem dotLhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dotLhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dotRhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dotRhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block product into the zero accumulator, at row `p` and column `q`: row `p` of the left factor against
    column `q` of the right one. -/
theorem blockProduct_apply (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact dotLhs_axis0 _ _
    | ⟨1, _⟩ => exact (dotLhs_axis1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dotRhs_axis0 _ _).trans hk
    | ⟨1, _⟩ => exact dotRhs_axis1 _ _)
  rw [el, er]

/-- One of the two products as the body forms it: the features narrowed (which changes no extended real) against the
    weights cast to their own shape (the identity). -/
theorem narrowedProduct_apply (x : FVec Ideal S10000x64 .f32) (w : FVec Ideal S64x64 .bf16) (hb : FTy.bits .bf16 < FTy.bits .f32)
    (hc : S64x64.ShapeCasts S64x64) (p : Fin 10000) (q : Fin 64) :
    matmul dot_S10000x64_S64x64_S10000x64_1_0_0_1_n_n none (truncf .bf16 x hb) (shapeCast S64x64 w hc) (constant (F := Ideal) S10000x64 .f32 0x00000000#32) (ix2 p q)
      = ∑ k : Fin 64, x (ix2 p k) * w (ix2 k q) := by
  refine (blockProduct_apply _ _ p q).trans ?_
  rw [shapeCast_self]
  rfl

/-- The bias row broadcast down the block, at row `p` and column `q`: the row's entry `q`. -/
theorem biasRow_apply (b : FVec Ideal S1x64 .f32) (hc : S1x64.ShapeCasts S1x64) (hb : S1x64.Broadcasts S10000x64)
    (p : Fin 10000) (q : Fin 64) :
    broadcastTo S10000x64 (shapeCast S1x64 b hc) hb (ix2 p q) = b (ix2 0 q) := by
  refine (broadcastTo_1b_ab_apply _ hb p q).trans ?_
  rw [shapeCast_self]

/-- The value the body stores, at row `p` and column `q` of its block: the residual plus the rectified sum of the two
    block products and the bias row. -/
theorem stored_apply (x0 x1 : Vec Ideal S10000x64 .f32) (x2 x3 : Vec Ideal S64x64 .bf16) (x4 : Vec Ideal S1x64 .f32)
    (p : Fin 10000) (q : Fin 64) :
    k1_pay1 (F := Ideal) x0 x1 x2 x3 x4 (ix2 p q)
      = x0 (ix2 p q) + max (((∑ k : Fin 64, x0 (ix2 p k) * x2 (ix2 k q)) + ∑ k : Fin 64, x1 (ix2 p k) * x3 (ix2 k q))
          + x4 (ix2 0 q)) 0 := by
  unfold k1_pay1
  show x0 (ix2 p q) + max ((matmul dot_S10000x64_S64x64_S10000x64_1_0_0_1_n_n none (truncf .bf16 x0 _) (shapeCast S64x64 x2 _) (constant (F := Ideal) S10000x64 .f32 0x00000000#32) (ix2 p q)
      + matmul dot_S10000x64_S64x64_S10000x64_1_0_0_1_n_n none (truncf .bf16 (shapeCast S10000x64 x1 _) _) (shapeCast S64x64 x3 _) (constant (F := Ideal) S10000x64 .f32 0x00000000#32) (ix2 p q))
      + broadcastTo S10000x64 (shapeCast S1x64 x4 _) _ (ix2 p q)) (Ideal.ofBits .f32 0x00000000#32) = _
  have e1 := narrowedProduct_apply x0 x2 bitsLt_bf16_f32 shapeCasts_S64x64_S64x64 p q
  have e2 : matmul dot_S10000x64_S64x64_S10000x64_1_0_0_1_n_n none (truncf .bf16 (shapeCast S10000x64 x1 shapeCasts_S10000x64_S10000x64) bitsLt_bf16_f32) (shapeCast S64x64 x3 shapeCasts_S64x64_S64x64) (constant (F := Ideal) S10000x64 .f32 0x00000000#32) (ix2 p q)
      = ∑ k : Fin 64, x1 (ix2 p k) * x3 (ix2 k q) :=
    (narrowedProduct_apply _ x3 bitsLt_bf16_f32 shapeCasts_S64x64_S64x64 p q).trans (by rw [shapeCast_self])
  have e3 := biasRow_apply x4 shapeCasts_S1x64_S1x64 broadcasts_S1x64_S10000x64 p q
  exact congrArg₂ (fun a z => x0 (ix2 p q) + max a z) (congrArg₂ (· + ·) (congrArg₂ (· + ·) e1 e2) e3) Ideal.ofBits_zero_f32

/-! ## From the ten blocks to the array -/

theorem origin_eq : (![0, 0] : Fin 2 → Nat) = fun _ => 0 := funext fun a => by fin_cases a <;> rfl

/-- The printed index maps, decided over the ten grid points: the two feature windows and the output window are at
    block row `t`, column block 0; the weight and bias windows are whole, at block (0, 0). -/
theorem blockIndex_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of grid point `t`'s block, as a row of the whole array. -/
abbrev blockRow (t : Fin cfg1.N) (p : Fin 10000) : Fin 100000 :=
  ⟨t.val * 10000 + p.val, by have ht : t.val < 10 := t.isLt; have hp := p.isLt; omega⟩

/-- The node features' block at point `t` is rows `10000 t …` of the array. -/
theorem featureBlock_apply (c : Dev nD) (t : Fin cfg1.N) (p : Fin 10000) (k : Fin 64) :
    iblk1 V c 0 t (ix2 p k) = V c main_arg0 (ix2 (blockRow t p) k) := by
  obtain ⟨a00, a01, -⟩ := blockIndex_facts t
  show V c main_arg0 (((cfg1.win 0).blk t).view.emb (ix2 p k)) = V c main_arg0 (ix2 (blockRow t p) k)
  refine congrArg (V c main_arg0) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

/-- The aggregated messages' block at point `t` is rows `10000 t …` of the array. -/
theorem aggregateBlock_apply (c : Dev nD) (t : Fin cfg1.N) (p : Fin 10000) (k : Fin 64) :
    iblk1 V c 1 t (ix2 p k) = V c main_v29 (ix2 (blockRow t p) k) := by
  obtain ⟨-, -, a10, a11, -⟩ := blockIndex_facts t
  show V c main_v29 (((cfg1.win 1).blk t).view.emb (ix2 p k)) = V c main_v29 (ix2 (blockRow t p) k)
  refine congrArg (V c main_v29) (funext fun a => Fin.ext ?_)
  match a with
  | ⟨0, _⟩ => show win1_1.index t (0 : Fin 2) * 10000 + 1 * p.val = t.val * 10000 + p.val; omega
  | ⟨1, _⟩ => show win1_1.index t (1 : Fin 2) * 64 + 1 * k.val = k.val; omega

/-- The first weight window is its whole array at every point. -/
theorem featureWeights_apply (c : Dev nD) (t : Fin cfg1.N) (k q : Fin 64) :
    iblk1 V c 2 t (ix2 k q) = V c main_v31 (ix2 k q) := by
  obtain ⟨-, -, -, -, a20, a21, -⟩ := blockIndex_facts t
  show V c main_v31 (((cfg1.win 2).blk t).view.emb (ix2 k q)) = V c main_v31 (ix2 k q)
  refine congrArg (V c main_v31) (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

/-- The second weight window is its whole array at every point. -/
theorem aggregateWeights_apply (c : Dev nD) (t : Fin cfg1.N) (k q : Fin 64) :
    iblk1 V c 3 t (ix2 k q) = V c main_v33 (ix2 k q) := by
  obtain ⟨-, -, -, -, -, -, a30, a31, -⟩ := blockIndex_facts t
  show V c main_v33 (((cfg1.win 3).blk t).view.emb (ix2 k q)) = V c main_v33 (ix2 k q)
  refine congrArg (V c main_v33) (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

/-- The bias window is its whole one-row array at every point. -/
theorem biasBlock_apply (c : Dev nD) (t : Fin cfg1.N) (q : Fin 64) :
    iblk1 V c 4 t (ix2 0 q) = V c main_v34 (ix2 0 q) := by
  obtain ⟨-, -, -, -, -, -, -, -, a40, a41, -⟩ := blockIndex_facts t
  show V c main_v34 (((cfg1.win 4).blk t).view.emb (ix2 0 q)) = V c main_v34 (ix2 0 q)
  refine congrArg (V c main_v34) (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- Entry `(p, q)` of the output's block at point `t` is entry `(10000 t + p, q)` of the array. -/
theorem outputBlock_emb (t : Fin cfg1.N) (p : Fin 10000) (q : Fin 64) :
    ((cfg1.win 5).blk t).view.emb (ix2 p q) = (ix2 (blockRow t p) q : S100000x64.Idx) := by
  obtain ⟨-, -, -, -, -, -, -, -, -, -, a50, a51⟩ := blockIndex_facts t
  funext a; apply Fin.ext
  match a with
  | ⟨0, _⟩ => show win1_5.index t (0 : Fin 2) * 10000 + 1 * p.val = t.val * 10000 + p.val; omega
  | ⟨1, _⟩ => show win1_5.index t (1 : Fin 2) * 64 + 1 * q.val = q.val; omega

/-- What point `t` writes back is block `t` of the updated features of the operand arrays as the region finds them. -/
theorem written_eq (c : Dev nD) (t : Fin cfg1.N) :
    (dat1 (F := Ideal) V c).flushed 5 t
      = ((cfg1.win 5).blk t).view.read (Elt Ideal) (upd (V c main_arg0) (V c main_v29) (V c main_v31) (V c main_v33) (V c main_v34)) := by
  show (cfg1.win 5).cut (grid1.coords t) ((dat1 (F := Ideal) V c).after 5 t) = _
  rw [after1_5]
  unfold out1_5
  rw [View.canon_unit_zero origin_eq]
  simp only [View.ld_unit_zero (S := S10000x64) origin_eq, View.ld_unit_zero (S := S64x64) origin_eq, View.ld_unit_zero (S := S1x64) origin_eq]
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = upd (V c main_arg0) (V c main_v29) (V c main_v31) (V c main_v33) (V c main_v34) (((cfg1.win 5).blk t).view.emb (ix2 p q))
  refine (stored_apply (iblk1 V c 0 t) (iblk1 V c 1 t) (iblk1 V c 2 t) (iblk1 V c 3 t) (iblk1 V c 4 t) p q).trans ?_
  refine Eq.trans ?_ (congrArg (upd (V c main_arg0) (V c main_v29) (V c main_v31) (V c main_v33) (V c main_v34)) (outputBlock_emb t p q)).symm
  show _ = updAt (V c main_arg0) (V c main_v29) (V c main_v31) (V c main_v33) (V c main_v34) (blockRow t p) q
  unfold updAt
  exact congrArg₂ (fun a b : EReal => a + b) (featureBlock_apply V c t p q)
    (congrArg (fun a : EReal => max a 0) (congrArg₂ (fun a b : EReal => a + b) (congrArg₂ (fun a b : EReal => a + b)
      (Finset.sum_congr rfl fun k _ => congrArg₂ (fun a b : EReal => a * b) (featureBlock_apply V c t p k) (featureWeights_apply V c t k q))
      (Finset.sum_congr rfl fun k _ => congrArg₂ (fun a b : EReal => a * b) (aggregateBlock_apply V c t p k) (aggregateWeights_apply V c t k q)))
      (biasBlock_apply V c t q)))

/-- An index of the array is in point `t`'s block iff each coordinate is in the block's range on its axis. -/
theorem mem_block (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v35).slice (win1_5.rect t)).set ↔ _
  rw [View.set_slice_whole, Rect.mem_set_unit]
  exact Iff.rfl

/-- The ten blocks tile the array: row `r` lies in the block of point `r / 10000`. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 10000 < cfg1.N := by show (i 0).val / 10000 < 10; omega
  obtain ⟨-, -, -, -, -, -, -, -, -, -, a50, a51⟩ := blockIndex_facts ⟨(i 0).val / 10000, hN⟩
  have b50 : win1_5.index ⟨(i 0).val / 10000, hN⟩ (0 : Fin 2) = (i 0).val / 10000 := a50
  refine ⟨⟨(i 0).val / 10000, hN⟩, flush1_5 _, ?_⟩
  rw [mem_block]
  intro a
  match a with
  | ⟨0, _⟩ =>
    show win1_5.index ⟨(i 0).val / 10000, hN⟩ (0 : Fin 2) * 10000 ≤ (i 0).val ∧ (i 0).val < win1_5.index ⟨(i 0).val / 10000, hN⟩ (0 : Fin 2) * 10000 + 10000
    omega
  | ⟨1, _⟩ =>
    show win1_5.index ⟨(i 0).val / 10000, hN⟩ (1 : Fin 2) * 64 ≤ (i 1).val ∧ (i 1).val < win1_5.index ⟨(i 0).val / 10000, hN⟩ (1 : Fin 2) * 64 + 64
    omega

/-- The update region's output array after its last grid point. -/
theorem final1 (c : Dev nD) :
    (dat1 (F := Ideal) V c).arrAt 5 cfg1.N
      = upd (V c main_arg0) (V c main_v29) (V c main_v31) (V c main_v33) (V c main_v34) :=
  (dat1 (F := Ideal) V c).arrAt_eq_of_cover 5 _ (fun t _ => written_eq V c t) covered

end Cert.KernelIdeal.Region1

end
-- ==== Proof.RefValue.lean ====
/-
  The reference's two dense stages are the specification's functions.

  Its messages contract the concatenated row [x[src] | x[dst] | edge_attr] (144 entries) against the whole first weight
  matrix; a contraction over the concatenated row is the sum of the contractions over its three pieces against the
  matching row ranges of the matrix. Likewise the update contracts [x | aggregated] (128 entries) against the whole
  update matrix. Everything else (bias rows, the rectifier, the second product, the residual) agrees term by term.
-/
import proofs.«406595_j16174846837133_1_alg».proof.Proof.Gen.ReferenceIdeal.Read
import proofs.«406595_j16174846837133_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.ReferenceIdeal.RefValue

open Cert.ReferenceIdeal Cert.ReferenceIdeal.Read Cert.EdgeConv Idealize.ShloMosaic Idealize.ShloMosaic.ValueIdx

/-- The concatenated edge row at a column below 64 is the source feature at that column. -/
theorem cat3_fst (x0 : FVec Ideal S100000x64 .f32) (x1 : IVec S2x1600000 32) (x2 : FVec Ideal S1600000x16 .f32)
    (e : Fin 1600000) (q : Fin 64) (i : S1600000x144.Idx) (h0 : (i 0).val = e.val) (h1 : (i 1).val = q.val) :
    val_main_v18 (F := Ideal) x0 x1 x2 i = val_main_v10 (F := Ideal) x0 x1 (ix2 e q) := by
  unfold val_main_v18
  refine concatenate_apply_piece _ _ _ i 0 (by show (0 : Nat) < 3; omega) S1600000x64 _ rfl rfl 0 rfl (ix2 e q) ?_ ?_
  · intro b hb
    match b with
    | ⟨0, _⟩ => exact h0.symm
    | ⟨1, _⟩ => exact absurd rfl hb
  · show 0 + q.val = (i 1).val
    omega

/-- At a column from 64 to 127 it is the destination feature, 64 columns back. -/
theorem cat3_snd (x0 : FVec Ideal S100000x64 .f32) (x1 : IVec S2x1600000 32) (x2 : FVec Ideal S1600000x16 .f32)
    (e : Fin 1600000) (q : Fin 64) (i : S1600000x144.Idx) (h0 : (i 0).val = e.val) (h1 : (i 1).val = 64 + q.val) :
    val_main_v18 (F := Ideal) x0 x1 x2 i = val_main_v17 (F := Ideal) x0 x1 (ix2 e q) := by
  unfold val_main_v18
  refine concatenate_apply_piece _ _ _ i 1 (by show (1 : Nat) < 3; omega) S1600000x64 _ rfl rfl 64 rfl (ix2 e q) ?_ ?_
  · intro b hb
    match b with
    | ⟨0, _⟩ => exact h0.symm
    | ⟨1, _⟩ => exact absurd rfl hb
  · show 64 + q.val = (i 1).val
    omega

/-- At a column from 128 on it is the edge attribute, 128 columns back. -/
theorem cat3_thd (x0 : FVec Ideal S100000x64 .f32) (x1 : IVec S2x1600000 32) (x2 : FVec Ideal S1600000x16 .f32)
    (e : Fin 1600000) (q : Fin 16) (i : S1600000x144.Idx) (h0 : (i 0).val = e.val) (h1 : (i 1).val = 128 + q.val) :
    val_main_v18 (F := Ideal) x0 x1 x2 i = x2 (ix2 e q) := by
  unfold val_main_v18
  refine concatenate_apply_piece _ _ _ i 2 (by show (2 : Nat) < 3; omega) S1600000x16 _ rfl rfl 128 rfl (ix2 e q) ?_ ?_
  · intro b hb
    match b with
    | ⟨0, _⟩ => exact h0.symm
    | ⟨1, _⟩ => exact absurd rfl hb
  · show 128 + q.val = (i 1).val
    omega

/-- The first layer's pre-activation at edge `e`, hidden unit `k`: the contraction over the 144-entry row splits into
    its three stretches, each read off its own piece and its own rows of the weight matrix. -/
theorem pre_eq (x0 : FVec Ideal S100000x64 .f32) (x1 : IVec S2x1600000 32) (x2 : FVec Ideal S1600000x16 .f32)
    (x3 : FVec Ideal S144x64 .f32) (x4 : FVec Ideal S64 .f32) (e : Fin 1600000) (k : Fin 64) :
    val_main_v22 (F := Ideal) x0 x1 x2 x3 x4 (ix2 e k)
      = preAct (val_main_v10 (F := Ideal) x0 x1) (val_main_v17 (F := Ideal) x0 x1) x2
          (rowsFrom 64 0 (by norm_num) (x3 : Mat 144 64)) (rowsFrom 64 64 (by norm_num) (x3 : Mat 144 64))
          (rowsFrom 16 128 (by norm_num) (x3 : Mat 144 64)) (asRow x4) e k := by
  rw [val_main_v22_apply, val_main_v19_apply, val_main_v21_apply, val_main_v20_apply, Ideal.addf_def, sum_split3]
  unfold preAct
  refine congrArg₂ (· + ·) (congrArg₂ (· + ·) (congrArg₂ (· + ·) ?_ ?_) ?_) ?_
  · refine Finset.sum_congr rfl fun q _ => ?_
    refine congrArg₂ (· * ·) (cat3_fst x0 x1 x2 e q _ rfl rfl) ?_
    show x3 _ = x3 _
    exact congrArg x3 (funext fun a => Fin.ext (by
      match a with
      | ⟨0, _⟩ => exact (Nat.zero_add _).symm
      | ⟨1, _⟩ => rfl))
  · refine Finset.sum_congr rfl fun q _ => ?_
    refine congrArg₂ (· * ·) (cat3_snd x0 x1 x2 e q _ rfl rfl) ?_
    show x3 _ = x3 _
    exact congrArg x3 (funext fun a => Fin.ext (by
      match a with
      | ⟨0, _⟩ => rfl
      | ⟨1, _⟩ => rfl))
  · refine Finset.sum_congr rfl fun q _ => ?_
    refine congrArg₂ (· * ·) (cat3_thd x0 x1 x2 e q _ rfl rfl) ?_
    show x3 _ = x3 _
    exact congrArg x3 (funext fun a => Fin.ext (by
      match a with
      | ⟨0, _⟩ => rfl
      | ⟨1, _⟩ => rfl))
  · show x4 _ = x4 _
    exact congrArg x4 (funext fun a => Fin.ext (by
      match a with
      | ⟨0, _⟩ => rfl))

/-- The rectified pre-activation. -/
theorem hid_eq (x0 : FVec Ideal S100000x64 .f32) (x1 : IVec S2x1600000 32) (x2 : FVec Ideal S1600000x16 .f32)
    (x3 : FVec Ideal S144x64 .f32) (x4 : FVec Ideal S64 .f32) (e : Fin 1600000) (k : Fin 64)
    (i : S1600000x64.Idx) (h0 : (i 0).val = e.val) (h1 : (i 1).val = k.val) :
    val_main_v23 (F := Ideal) x0 x1 x2 x3 x4 i
      = max (preAct (val_main_v10 (F := Ideal) x0 x1) (val_main_v17 (F := Ideal) x0 x1) x2
          (rowsFrom 64 0 (by norm_num) (x3 : Mat 144 64)) (rowsFrom 64 64 (by norm_num) (x3 : Mat 144 64))
          (rowsFrom 16 128 (by norm_num) (x3 : Mat 144 64)) (asRow x4) e k) 0 := by
  have hi : i = ix2 e k := funext fun a => Fin.ext (by
    match a with
    | ⟨0, _⟩ => exact h0
    | ⟨1, _⟩ => exact h1)
  subst hi
  rw [val_main_v23_apply, val_main_call0_v0_apply, val_main_call0_cst_apply, Ideal.maximumf_def, Ideal.ofBits_def,
    Ideal.ofBits_zero_f32, pre_eq]

/-- The reference's messages array. -/
theorem messages_eq (x0 : FVec Ideal S100000x64 .f32) (x1 : IVec S2x1600000 32) (x2 : FVec Ideal S1600000x16 .f32)
    (x3 : FVec Ideal S144x64 .f32) (x4 : FVec Ideal S64 .f32) (x5 : FVec Ideal S64x64 .f32) (x6 : FVec Ideal S64 .f32) :
    (val_main_v27 (F := Ideal) x0 x1 x2 x3 x4 x5 x6 : Mat 1600000 64)
      = msg (val_main_v10 (F := Ideal) x0 x1) (val_main_v17 (F := Ideal) x0 x1) x2
          (rowsFrom 64 0 (by norm_num) (x3 : Mat 144 64)) (rowsFrom 64 64 (by norm_num) (x3 : Mat 144 64))
          (rowsFrom 16 128 (by norm_num) (x3 : Mat 144 64)) (asRow x4) x5 (asRow x6) := by
  funext i
  obtain ⟨e, j, rfl⟩ : ∃ (e : Fin 1600000) (j : Fin 64), i = ix2 e j := ⟨i 0, i 1, eq_ix2 i⟩
  rw [msg_apply, val_main_v27_apply, val_main_v24_apply, val_main_v26_apply, val_main_v25_apply, Ideal.addf_def]
  unfold msgAt
  refine congrArg₂ (· + ·) ?_ ?_
  · refine Finset.sum_congr rfl fun k _ => ?_
    refine congrArg₂ (· * ·) (hid_eq x0 x1 x2 x3 x4 e k _ rfl rfl) ?_
    show x5 _ = x5 _
    exact congrArg x5 (funext fun a => Fin.ext (by
      match a with
      | ⟨0, _⟩ => rfl
      | ⟨1, _⟩ => rfl))
  · show x6 _ = x6 _
    exact congrArg x6 (funext fun a => Fin.ext (by
      match a with
      | ⟨0, _⟩ => rfl))

/-- The concatenated node row at a column below 64 is the node's own feature at that column. -/
theorem cat2_fst (x0 : FVec Ideal S100000x64 .f32) (x1 : IVec S2x1600000 32) (x2 : FVec Ideal S1600000x16 .f32)
    (x3 : FVec Ideal S144x64 .f32) (x4 : FVec Ideal S64 .f32) (x5 : FVec Ideal S64x64 .f32) (x6 : FVec Ideal S64 .f32)
    (n : Fin 100000) (q : Fin 64) (i : S100000x128.Idx) (h0 : (i 0).val = n.val) (h1 : (i 1).val = q.val) :
    val_main_v39 (F := Ideal) x0 x1 x2 x3 x4 x5 x6 i = x0 (ix2 n q) := by
  unfold val_main_v39
  refine concatenate_pair_apply_left (s₁ := S100000x64) (s₂ := S100000x64) _ _ _ _ i rfl (ix2 n q) ?_
  intro b
  match b with
  | ⟨0, _⟩ => exact h0.symm
  | ⟨1, _⟩ => exact h1.symm

/-- At a column from 64 on it is the aggregated feature, 64 columns back. -/
theorem cat2_snd (x0 : FVec Ideal S100000x64 .f32) (x1 : IVec S2x1600000 32) (x2 : FVec Ideal S1600000x16 .f32)
    (x3 : FVec Ideal S144x64 .f32) (x4 : FVec Ideal S64 .f32) (x5 : FVec Ideal S64x64 .f32) (x6 : FVec Ideal S64 .f32)
    (n : Fin 100000) (q : Fin 64) (i : S100000x128.Idx) (h0 : (i 0).val = n.val) (h1 : (i 1).val = 64 + q.val) :
    val_main_v39 (F := Ideal) x0 x1 x2 x3 x4 x5 x6 i = val_main_v38 (F := Ideal) x0 x1 x2 x3 x4 x5 x6 (ix2 n q) := by
  unfold val_main_v39
  refine concatenate_pair_apply_right (s₁ := S100000x64) (s₂ := S100000x64) _ _ _ _ i rfl rfl (ix2 n q) ?_ ?_
  · intro b hb
    match b with
    | ⟨0, _⟩ => exact h0.symm
    | ⟨1, _⟩ => exact absurd rfl hb
  · show q.val + 64 = (i 1).val
    omega

/-- The reference's result array, over its own aggregated array. -/
theorem update_eq (x0 : FVec Ideal S100000x64 .f32) (x1 : IVec S2x1600000 32) (x2 : FVec Ideal S1600000x16 .f32)
    (x3 : FVec Ideal S144x64 .f32) (x4 : FVec Ideal S64 .f32) (x5 : FVec Ideal S64x64 .f32) (x6 : FVec Ideal S64 .f32)
    (x7 : FVec Ideal S128x64 .f32) (x8 : FVec Ideal S64 .f32) :
    (val_main_v45 (F := Ideal) x0 x1 x2 x3 x4 x5 x6 x7 x8 : Mat 100000 64)
      = upd x0 (val_main_v38 (F := Ideal) x0 x1 x2 x3 x4 x5 x6)
          (rowsFrom 64 0 (by norm_num) (x7 : Mat 128 64)) (rowsFrom 64 64 (by norm_num) (x7 : Mat 128 64)) (asRow x8) := by
  funext i
  obtain ⟨n, j, rfl⟩ : ∃ (n : Fin 100000) (j : Fin 64), i = ix2 n j := ⟨i 0, i 1, eq_ix2 i⟩
  rw [upd_apply, val_main_v45_apply, val_main_v44_apply, val_main_v43_apply, val_main_v40_apply, val_main_v42_apply,
    val_main_v41_apply, val_main_call1_v0_apply, val_main_call1_cst_apply, Ideal.addf_def, Ideal.addf_def,
    Ideal.maximumf_def, Ideal.ofBits_def, Ideal.ofBits_zero_f32, sum_split2]
  unfold updAt
  refine congrArg₂ (· + ·) rfl (congrArg₂ max (congrArg₂ (· + ·) (congrArg₂ (· + ·) ?_ ?_) ?_) rfl)
  · refine Finset.sum_congr rfl fun q _ => ?_
    refine congrArg₂ (· * ·) (cat2_fst x0 x1 x2 x3 x4 x5 x6 n q _ rfl rfl) ?_
    show x7 _ = x7 _
    exact congrArg x7 (funext fun a => Fin.ext (by
      match a with
      | ⟨0, _⟩ => exact (Nat.zero_add _).symm
      | ⟨1, _⟩ => rfl))
  · refine Finset.sum_congr rfl fun q _ => ?_
    refine congrArg₂ (· * ·) (cat2_snd x0 x1 x2 x3 x4 x5 x6 n q _ rfl rfl) ?_
    show x7 _ = x7 _
    exact congrArg x7 (funext fun a => Fin.ext (by
      match a with
      | ⟨0, _⟩ => rfl
      | ⟨1, _⟩ => rfl))
  · show x8 _ = x8 _
    exact congrArg x8 (funext fun a => Fin.ext (by
      match a with
      | ⟨0, _⟩ => rfl))

end Cert.ReferenceIdeal.RefValue

end
-- ==== Proof.Bridge.lean ====
/-
  The two programs spell the same host arithmetic, each over its own shape names and side conditions.

  The reference reads x[src] and x[dst] as the plain row read at the wrapped index words, and aggregates its messages
  exactly as the kernel's program does between its two regions: the same segment sums over the raw destination words,
  the same small constant, the same division. Unfolding the names on both sides leaves one term.
-/
import proofs.«406595_j16174846837133_1_alg».proof.Proof.HostTerms
import proofs.«406595_j16174846837133_1_alg».proof.Proof.Gen.ReferenceIdeal.Read
import Idealize.ShloMosaic.PureOps.Ideal

set_option maxRecDepth 16384

noncomputable section

namespace Cert.Bridge

open Idealize.ShloMosaic
open Cert.KernelIdeal.HostTerms
open Cert.ReferenceIdeal.Read

/-- The plain read of the source rows is the reference's x[src]. -/
theorem gather_src (x : FVec Ideal Cert.KernelIdeal.S100000x64 .f32) (ei : IVec Cert.KernelIdeal.S2x1600000 32) :
    gatherRows x (wrapIdx (idxRow0 ei)) = val_main_v10 (F := Ideal) x ei := by
  unfold gatherRows wrapIdx idxRow0 idxCol val_main_v10 val_main_v9 val_main_v8 val_main_v7 val_main_v6 val_main_v5 val_main_v4
    val_main_v1 val_main_v0 val_main_c val_main_c_0
  rfl

/-- The plain read of the destination rows is the reference's x[dst]. -/
theorem gather_dst (x : FVec Ideal Cert.KernelIdeal.S100000x64 .f32) (ei : IVec Cert.KernelIdeal.S2x1600000 32) :
    gatherRows x (wrapIdx (idxRow1 ei)) = val_main_v17 (F := Ideal) x ei := by
  unfold gatherRows wrapIdx idxRow1 idxCol val_main_v17 val_main_v16 val_main_v15 val_main_v14 val_main_v13 val_main_v12 val_main_v11
    val_main_v3 val_main_v2 val_main_c_1 val_main_c_2
  rfl

/-- The reference's aggregated array is the mean aggregation of its own messages over the destination words. -/
theorem aggregate (x0 : FVec Ideal Cert.ReferenceIdeal.S100000x64 .f32) (x1 : IVec Cert.ReferenceIdeal.S2x1600000 32)
    (x2 : FVec Ideal Cert.ReferenceIdeal.S1600000x16 .f32) (x3 : FVec Ideal Cert.ReferenceIdeal.S144x64 .f32)
    (x4 : FVec Ideal Cert.ReferenceIdeal.S64 .f32) (x5 : FVec Ideal Cert.ReferenceIdeal.S64x64 .f32) (x6 : FVec Ideal Cert.ReferenceIdeal.S64 .f32) :
    val_main_v38 (F := Ideal) x0 x1 x2 x3 x4 x5 x6 = aggOf (val_main_v27 (F := Ideal) x0 x1 x2 x3 x4 x5 x6) (idxRow1 x1) := by
  unfold val_main_v38 val_main_v30 val_main_v37 val_main_v36 val_main_v35 val_main_v34 val_main_v33 val_main_v32 val_main_v31 val_main_v29 val_main_v28
    val_main_cst val_main_cst_3 val_main_cst_4 val_main_cst_5 val_main_v3 val_main_v2 aggOf idxCol idxRow1
  rfl

end Cert.Bridge

end
-- ==== Proof.lean ====
/-
  A graph layer's edge messages and node update, computed by two tiled kernels around host gathers and a segment mean,
  against the plain array program: equal as extended reals wherever every word of the edge table is a valid
  NumPy-style index into the 100000 feature rows (-100000 ≤ v < 100000).

  Both programs wrap a negative index word by adding 100000 and then read a row of the feature matrix. The array
  program reads it plainly (an out-of-range start clamps); the kernel's program reads it under a range mask with a
  fixed filler outside [0, 99999]. Under the index-range precondition the mask is set on every edge, so the two reads
  agree (`Mask.takeRows_eq_gatherRows`). The message kernel adds three contractions, over the source rows, the
  destination rows and the edge attributes, each against its row range of the first weight matrix; the array program
  contracts the concatenated 144-entry row against the whole matrix: the same sum, regrouped (`RefValue.messages_eq`,
  `Region0.final0`). The aggregation between the kernels, segment sums over the raw destination words and a division,
  is the same host text in both programs and is carried as one function (`aggOf`, `Bridge.aggregate`). The update
  kernel adds two contractions against the halves of the update matrix where the array program contracts the
  concatenated 128-entry row (`RefValue.update_eq`, `Region1.final1`). No step needs the inputs finite: the only
  laws used are commutativity and associativity of addition on the extended reals.

  The kernel's run comes from the frame of its two regions with the result buffer read at the last boundary
  (`RunValue.run`); each region's output array is the blocks its grid points write (`final0`, `final1`), and each
  operand array is host arithmetic of the arguments (`HostIn`). The array program's run and its reading one operation
  at a time are the generated modules.
-/
import proofs.«406595_j16174846837133_1_alg».proof.Defs
import proofs.«406595_j16174846837133_1_alg».proof.Proof.Gen.Kernel
import proofs.«406595_j16174846837133_1_alg».proof.Proof.Gen.Kernel.Frame
import proofs.«406595_j16174846837133_1_alg».proof.Proof.Gen.KernelIdeal
import proofs.«406595_j16174846837133_1_alg».proof.Proof.Gen.KernelIdeal.Frame
import proofs.«406595_j16174846837133_1_alg».proof.Proof.Gen.ReferenceIdeal
import proofs.«406595_j16174846837133_1_alg».proof.Proof.Gen.ReferenceIdeal.Run
import proofs.«406595_j16174846837133_1_alg».proof.Proof.Gen.ReferenceIdeal.Read
import proofs.«406595_j16174846837133_1_alg».proof.Proof.Gen.Pre_finite_inputs
import proofs.«406595_j16174846837133_1_alg».proof.Proof.Spec
import proofs.«406595_j16174846837133_1_alg».proof.Proof.KernelRun
import proofs.«406595_j16174846837133_1_alg».proof.Proof.HostTerms
import proofs.«406595_j16174846837133_1_alg».proof.Proof.HostIn
import proofs.«406595_j16174846837133_1_alg».proof.Proof.KernelOperands
import proofs.«406595_j16174846837133_1_alg».proof.Proof.Mask
import proofs.«406595_j16174846837133_1_alg».proof.Proof.Region0
import proofs.«406595_j16174846837133_1_alg».proof.Proof.Region1
import proofs.«406595_j16174846837133_1_alg».proof.Proof.RefValue
import proofs.«406595_j16174846837133_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem
open Cert.EdgeConv Cert.KernelIdeal.HostTerms

/-! ## The kernel's result is the array program's term of the same arguments -/

section KernelValue

open Cert.KernelIdeal Cert.KernelIdeal.Gen Cert.KernelIdeal.HostIn

variable (m : (ℓ : Loc Cert.KernelIdeal.nD Cert.KernelIdeal.τ Cert.KernelIdeal.sig) → Buf (Elt Ideal) ℓ) (ρ : Dev Cert.KernelIdeal.nD → PrngReg)

/-- The messages array the first region leaves, in the array program's words. -/
theorem messages_value (hpre : Cert.Pre_KernelIdeal m) (c : Dev Cert.KernelIdeal.nD) :
    (W5 (F := Ideal) m ρ c (Proc.devRef .tc main_v18) : Mat 1600000 64)
      = Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  obtain ⟨hs, hd⟩ := Cert.KernelIdeal.Mask.rows_range (m ((c.tc : Thread Cert.KernelIdeal.nD Cert.KernelIdeal.τ).loc Cert.KernelIdeal.main_arg1)) (fun j => Cert.KernelIdeal.Mask.table_range m hpre c j)
  rw [Cert.ReferenceIdeal.RefValue.messages_eq, ← Cert.Bridge.gather_src, ← Cert.Bridge.gather_dst,
    ← Cert.KernelIdeal.Mask.takeRows_eq_gatherRows _ _ hs, ← Cert.KernelIdeal.Mask.takeRows_eq_gatherRows _ _ hd]
  refine (W5_arr m ρ c 9).trans ?_
  refine (Cert.KernelIdeal.Region0.final0 (V4 m ρ) c).trans ?_
  rw [V4_xs m ρ c, V4_xd m ρ c, V4_ea m ρ c, V4_w1s m ρ c, V4_w1d m ρ c, V4_w1e m ρ c, V4_b1 m ρ c, V4_w2 m ρ c, V4_b2 m ρ c]
  rw [Cert.KernelIdeal.Operands.w1s_eq, Cert.KernelIdeal.Operands.w1d_eq, Cert.KernelIdeal.Operands.w1e_eq,
    Cert.KernelIdeal.Operands.row_eq, Cert.KernelIdeal.Operands.row_eq]
  simp only [Cert.KernelIdeal.Operands.cast_eq]

/-- The result array the second region leaves, in the array program's words. -/
theorem result_value (hpre : Cert.Pre_KernelIdeal m) (c : Dev Cert.KernelIdeal.nD) :
    (W7 (F := Ideal) m ρ c (Proc.devRef .tc main_v35) : Mat 100000 64)
      = Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [Cert.ReferenceIdeal.RefValue.update_eq, Cert.Bridge.aggregate, ← messages_value m ρ hpre c]
  refine (W7_arr m ρ c 5).trans ?_
  refine (Cert.KernelIdeal.Region1.final1 (V6 m ρ) c).trans ?_
  rw [V6_x m ρ c, V6_agg m ρ c, V6_wux m ρ c, V6_wua m ρ c, V6_bu m ρ c, W5_dst m ρ c]
  rw [Cert.KernelIdeal.Operands.wux_eq, Cert.KernelIdeal.Operands.wua_eq, Cert.KernelIdeal.Operands.row_eq]

end KernelValue

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the array program's term of the (agreeing) arguments. -/
theorem algebraic : Cert.algebraic_KernelIdeal_ReferenceIdeal := by
  intro m ρ m' ρ' hpre hagree
  refine ⟨_, (θ_run Cert.KernelIdeal.defs _ _).mono
    (fun _ h c => ⟨(h c).1.trans (result_value m ρ hpre c), (h c).2⟩) (Cert.KernelIdeal.RunValue.run (F := Ideal) m ρ), ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8⟩ := hagree c
  rw [Cert.ReferenceIdeal.Read.val_main_v45_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
